-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64 : Shape := ⟨1, ![64]⟩
abbrev S64x1x512x512 : Shape := ⟨4, ![64, 1, 512, 512]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel
  bcast_S_S64x1x512x512 : S_.BroadcastsInDim S64x1x512x512 (![] : Fin 0 → Fin S64x1x512x512.rank)
  reducesTo_S64x1x512x512_S_d0_1_2_3 : S64x1x512x512.ReducesTo [0, 1, 2, 3] S_

variable [Facts]

def fn_part1 {F : FTy → Type} [FloatOps F] (main_arg3 : FVec F S64x1x512x512 .f32) (main_v13 : IVec S_ 1) (main_v15 : IVec S64x1x512x512 1) (main_cst_5 : FVec F S_ .f32) : IVec S_ 1 :=
  let main_v16 : FVec F S64x1x512x512 .f32 := broadcastInDim S64x1x512x512 ![] bcast_S_S64x1x512x512 main_cst_5
  let main_v17 : IVec S64x1x512x512 1 := cmpf .oeq main_arg3 main_v16
  let main_v18 : IVec S64x1x512x512 1 := ori main_v15 main_v17
  let main_c_6 : IVec S_ 1 := constantI S_ 1 1#1
  let main_v19 : IVec S_ 1 := (fun x v => Host.reduce IntOp.andi x v reducesTo_S64x1x512x512_S_d0_1_2_3 h_S_) main_v18 main_c_6
  let main_v20 : IVec S_ 1 := andi main_v13 main_v19
  main_v20

def fn {F : FTy → Type} [FloatOps F] (main_arg0 : FVec F S64 .f32) (main_arg1 : FVec F S64x1x512x512 .f32) (main_arg2 : IVec S64 32) (main_arg3 : FVec F S64x1x512x512 .f32) : IVec S_ 1 :=
  let main_v0 : FVec F S64 .f32 := Host.absf main_arg0
  let main_cst : FVec F S_ .f32 := constant S_ .f32 0x7F800000#32
  let main_v1 : FVec F S64 .f32 := broadcastInDim S64 ![] bcast_S_S64 main_cst
  let main_v2 : IVec S64 1 := cmpf .olt main_v0 main_v1
  let main_c : IVec S_ 1 := constantI S_ 1 1#1
  let main_v3 : IVec S_ 1 := (fun x v => Host.reduce IntOp.andi x v reducesTo_S64_S_d0 h_S_) main_v2 main_c
  let main_v4 : FVec F S64x1x512x512 .f32 := Host.absf main_arg1
  let main_cst_0 : FVec F S_ .f32 := constant S_ .f32 0x7F800000#32
  let main_v5 : FVec F S64x1x512x512 .f32 := broadcastInDim S64x1x512x512 ![] bcast_S_S64x1x512x512 main_cst_0
  let main_v6 : IVec S64x1x512x512 1 := cmpf .olt main_v4 main_v5
  let main_c_1 : IVec S_ 1 := constantI S_ 1 1#1
  let main_v7 : IVec S_ 1 := (fun x v => Host.reduce IntOp.andi x v reducesTo_S64x1x512x512_S_d0_1_2_3 h_S_) main_v6 main_c_1
  let main_v8 : IVec S_ 1 := andi main_v3 main_v7
  let main_v9 : FVec F S64x1x512x512 .f32 := Host.absf main_arg3
  let main_cst_2 : FVec F S_ .f32 := constant S_ .f32 0x7F800000#32
  let main_v10 : FVec F S64x1x512x512 .f32 := broadcastInDim S64x1x512x512 ![] bcast_S_S64x1x512x512 main_cst_2
  let main_v11 : IVec S64x1x512x512 1 := cmpf .olt main_v9 main_v10
  let main_c_3 : IVec S_ 1 := constantI S_ 1 1#1
  let main_v12 : IVec S_ 1 := (fun x v => Host.reduce IntOp.andi x v reducesTo_S64x1x512x512_S_d0_1_2_3 h_S_) main_v11 main_c_3
  let main_v13 : IVec S_ 1 := andi main_v8 main_v12
  let main_cst_4 : FVec F S_ .f32 := constant S_ .f32 0x00000000#32
  let main_v14 : FVec F S64x1x512x512 .f32 := broadcastInDim S64x1x512x512 ![] bcast_S_S64x1x512x512 main_cst_4
  let main_v15 : IVec S64x1x512x512 1 := cmpf .oeq main_arg3 main_v14
  let main_cst_5 : FVec F S_ .f32 := constant S_ .f32 0x3F800000#32
  fn_part1 (F := F) main_arg3 main_v13 main_v15 main_cst_5
-- ==== Kernel.lean ====
abbrev S64 : Shape := ⟨1, ![64]⟩
abbrev S64x1x512x512 : Shape := ⟨4, ![64, 1, 512, 512]⟩
abbrev S_ : Shape := ⟨0, ![]⟩
abbrev S64x1 : Shape := ⟨2, ![64, 1]⟩
abbrev S32x1x64x512 : Shape := ⟨4, ![32, 1, 64, 512]⟩
abbrev S32x1 : Shape := ⟨2, ![32, 1]⟩
abbrev S32x1x64 : Shape := ⟨3, ![32, 1, 64]⟩

abbrev nBuf : Space → Nat
  | .hbm => 75
  | .vmem => 12
  | .smem => 0
  | _ => 0

abbrev bufTy : (tb : Table) → Fin (tcTables nBuf tb) → BufTy
  | .hbm, ⟨0, _⟩ => ⟨S64, .f32⟩
  | .hbm, ⟨1, _⟩ => ⟨S64x1x512x512, .f32⟩
  | .hbm, ⟨2, _⟩ => ⟨S64, .i32⟩
  | .hbm, ⟨3, _⟩ => ⟨S64x1x512x512, .f32⟩
  | .hbm, ⟨4, _⟩ => ⟨S64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S64x1, .f32⟩
  | .hbm, ⟨30, _⟩ => ⟨S64x1, .f32⟩
  | .hbm, ⟨31, _⟩ => ⟨S64x1, .f32⟩
  | .hbm, ⟨32, _⟩ => ⟨S64x1, .f32⟩
  | .hbm, ⟨33, _⟩ => ⟨S64, .f32⟩
  | .hbm, ⟨34, _⟩ => ⟨S64, .f32⟩
  | .hbm, ⟨35, _⟩ => ⟨S64, .f32⟩
  | .hbm, ⟨36, _⟩ => ⟨S64, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S_, .f32⟩
  | .hbm, ⟨41, _⟩ => ⟨S64, .f32⟩
  | .hbm, ⟨42, _⟩ => ⟨S64, .f32⟩
  | .hbm, ⟨43, _⟩ => ⟨S64, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S64, .f32⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S_, .f32⟩
  | .hbm, ⟨55, _⟩ => ⟨S64, .f32⟩
  | .hbm, ⟨56, _⟩ => ⟨S64, .i1⟩
  | .hbm, ⟨57, _⟩ => ⟨S64, .f32⟩
  | .hbm, ⟨58, _⟩ => ⟨S_, .f32⟩
  | .hbm, ⟨59, _⟩ => ⟨S64, .f32⟩
  | .hbm, ⟨60, _⟩ => ⟨S64, .i1⟩
  | .hbm, ⟨61, _⟩ => ⟨S64, .f32⟩
  | .hbm, ⟨62, _⟩ => ⟨S_, .f32⟩
  | .hbm, ⟨63, _⟩ => ⟨S_, .f32⟩
  | .hbm, ⟨64, _⟩ => ⟨S64, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .i1⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .local _ .vmem, ⟨0, _⟩ => ⟨S32x1x64x512, .f32⟩
  | .local _ .vmem, ⟨1, _⟩ => ⟨S32x1x64x512, .f32⟩
  | .local _ .vmem, ⟨2, _⟩ => ⟨S32x1x64x512, .f32⟩
  | .local _ .vmem, ⟨3, _⟩ => ⟨S32x1x64x512, .f32⟩
  | .local _ .vmem, ⟨4, _⟩ => ⟨S32x1, .f32⟩
  | .local _ .vmem, ⟨5, _⟩ => ⟨S32x1, .f32⟩
  | .local _ .vmem, ⟨6, _⟩ => ⟨S32x1, .f32⟩
  | .local _ .vmem, ⟨7, _⟩ => ⟨S32x1, .f32⟩
  | .local _ .vmem, ⟨8, _⟩ => ⟨S32x1, .f32⟩
  | .local _ .vmem, ⟨9, _⟩ => ⟨S32x1, .f32⟩
  | .local _ .vmem, ⟨10, _⟩ => ⟨S32x1, .f32⟩
  | .local _ .vmem, ⟨11, _⟩ => ⟨S32x1, .f32⟩
  | _, _ => ⟨S64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_cst_4 : Ref sig .tc := ⟨.hbm, 26, rfl⟩
abbrev main_v12 : Ref sig .tc := ⟨.hbm, 27, rfl⟩
abbrev main_v13 : Ref sig .tc := ⟨.hbm, 28, rfl⟩
abbrev main_v14_0 : Ref sig .tc := ⟨.hbm, 29, rfl⟩
abbrev main_v14_1 : Ref sig .tc := ⟨.hbm, 30, rfl⟩
abbrev main_v14_2 : Ref sig .tc := ⟨.hbm, 31, rfl⟩
abbrev main_v14_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_5 : Ref sig .tc := ⟨.hbm, 37, rfl⟩
abbrev main_v19 : Ref sig .tc := ⟨.hbm, 38, rfl⟩
abbrev main_v20 : Ref sig .tc := ⟨.hbm, 39, rfl⟩
abbrev main_cst_6 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_8 : Ref sig .tc := ⟨.hbm, 48, rfl⟩
abbrev main_v27 : Ref sig .tc := ⟨.hbm, 49, rfl⟩
abbrev main_v28 : Ref sig .tc := ⟨.hbm, 50, rfl⟩
abbrev main_cst_9 : Ref sig .tc := ⟨.hbm, 51, rfl⟩
abbrev main_v29 : Ref sig .tc := ⟨.hbm, 52, rfl⟩
abbrev main_v30 : Ref sig .tc := ⟨.hbm, 53, rfl⟩
abbrev main_cst_10 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_11 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_12 : Ref sig .tc := ⟨.hbm, 62, rfl⟩
abbrev main_v37 : Ref sig .tc := ⟨.hbm, 63, rfl⟩
abbrev main_v38 : Ref sig .tc := ⟨.hbm, 64, rfl⟩
abbrev main_cst_13 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_cst_15 : Ref sig .tc := ⟨.hbm, 70, rfl⟩
abbrev main_v42 : Ref sig .tc := ⟨.hbm, 71, rfl⟩
abbrev main_v43 : Ref sig .tc := ⟨.hbm, 72, rfl⟩
abbrev main_cst_16 : Ref sig .tc := ⟨.hbm, 73, rfl⟩
abbrev main_v44 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S32x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S32x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S64 : S_.BroadcastsInDim S64 (![] : Fin 0 → Fin S64.rank)
  reducesTo_S64_S_d0 : S64.ReducesTo [0] S_
  h_S_ : 0 < S_.numel
  inb_S32x1_S32x1_0_0 : ∀ a, (![0, 0] : Fin 2 → Nat) a + S32x1.size a ≤ S32x1.size a
  h_S32x1 : 0 < S32x1.numel
  inb_S32x1x64x512_S32x1x64x512_0_0_0_0 : ∀ a, (![0, 0, 0, 0] : Fin 4 → Nat) a + S32x1x64x512.size a ≤ S32x1x64x512.size a
  h_S32x1x64x512 : 0 < S32x1x64x512.numel
  reduces_S32x1x64x512_S32x1x64 : S32x1x64x512.Reduces [3] S32x1x64
  reduces_S32x1x64_S32x1 : S32x1x64.Reduces [2] S32x1
  shapeCasts_S32x1_S32x1 : S32x1.ShapeCasts S32x1
  shapeCasts_S64x1_S64 : S64x1.ShapeCasts S64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1x64x512.size a ≤ S64x1x512x512.size a
  hwx0_0 : ∀ i : grid0.Coords, EltTy.bits .f32 = 32 ∨ (Rect.block (s := S64x1x512x512) S32x1x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1x64x512.size a ≤ S64x1x512x512.size a
  hwx0_1 : ∀ i : grid0.Coords, EltTy.bits .f32 = 32 ∨ (Rect.block (s := S64x1x512x512) S32x1x64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S64x1.size a
  hwx0_2 : ∀ i : grid0.Coords, EltTy.bits .f32 = 32 ∨ (Rect.block (s := S64x1) S32x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S64x1.size a
  hwx0_3 : ∀ i : grid0.Coords, EltTy.bits .f32 = 32 ∨ (Rect.block (s := S64x1) S32x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S64x1.size a
  hwx0_4 : ∀ i : grid0.Coords, EltTy.bits .f32 = 32 ∨ (Rect.block (s := S64x1) S32x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x1.size a ≤ S64x1.size a
  hwx0_5 : ∀ i : grid0.Coords, EltTy.bits .f32 = 32 ∨ (Rect.block (s := S64x1) S32x1.size (cc0_transform_5 i) (hinb0_5 i)).WholeWords (EltTy.packing .f32)

variable [Facts₀]

abbrev win0_0 : Pipeline.Window sig grid0 :=
  Pipeline.Window.ofSpec (Memref.whole main_arg1) S32x1x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14_0) S32x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14_1) S32x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14_2) S32x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14_3) S32x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64 : Shape := ⟨1, ![64]⟩
abbrev S64x1x512x512 : Shape := ⟨4, ![64, 1, 512, 512]⟩
abbrev S_ : Shape := ⟨0, ![]⟩

abbrev nBuf : Space → Nat
  | .hbm => 86
  | .vmem => 0
  | .smem => 0
  | _ => 0

abbrev bufTy : (tb : Table) → Fin (tcTables nBuf tb) → BufTy
  | .hbm, ⟨0, _⟩ => ⟨S64, .f32⟩
  | .hbm, ⟨1, _⟩ => ⟨S64x1x512x512, .f32⟩
  | .hbm, ⟨2, _⟩ => ⟨S64, .i32⟩
  | .hbm, ⟨3, _⟩ => ⟨S64x1x512x512, .f32⟩
  | .hbm, ⟨4, _⟩ => ⟨S64x1x512x512, .f32⟩
  | .hbm, ⟨5, _⟩ => ⟨S64x1x512x512, .f32⟩
  | .hbm, ⟨6, _⟩ => ⟨S_, .f32⟩
  | .hbm, ⟨7, _⟩ => ⟨S64x1x512x512, .f32⟩
  | .hbm, ⟨8, _⟩ => ⟨S64x1x512x512, .f32⟩
  | .hbm, ⟨9, _⟩ => ⟨S_, .f32⟩
  | .hbm, ⟨10, _⟩ => ⟨S64x1x512x512, .f32⟩
  | .hbm, ⟨11, _⟩ => ⟨S64x1x512x512, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S64, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S64x1x512x512, .f32⟩
  | .hbm, ⟨38, _⟩ => ⟨S_, .f32⟩
  | .hbm, ⟨39, _⟩ => ⟨S64, .f32⟩
  | .hbm, ⟨40, _⟩ => ⟨S64x1x512x512, .f32⟩
  | .hbm, ⟨41, _⟩ => ⟨S_, .f32⟩
  | .hbm, ⟨42, _⟩ => ⟨S64, .f32⟩
  | .hbm, ⟨43, _⟩ => ⟨S64x1x512x512, .f32⟩
  | .hbm, ⟨44, _⟩ => ⟨S_, .f32⟩
  | .hbm, ⟨45, _⟩ => ⟨S64, .f32⟩
  | .hbm, ⟨46, _⟩ => ⟨S_, .f32⟩
  | .hbm, ⟨47, _⟩ => ⟨S64, .f32⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S64, .f32⟩
  | .hbm, ⟨55, _⟩ => ⟨S_, .f32⟩
  | .hbm, ⟨56, _⟩ => ⟨S64, .f32⟩
  | .hbm, ⟨57, _⟩ => ⟨S64, .f32⟩
  | .hbm, ⟨58, _⟩ => ⟨S64, .f32⟩
  | .hbm, ⟨59, _⟩ => ⟨S_, .f32⟩
  | .hbm, ⟨60, _⟩ => ⟨S64, .f32⟩
  | .hbm, ⟨61, _⟩ => ⟨S64, .f32⟩
  | .hbm, ⟨62, _⟩ => ⟨S_, .f32⟩
  | .hbm, ⟨63, _⟩ => ⟨S64, .f32⟩
  | .hbm, ⟨64, _⟩ => ⟨S64, .f32⟩
  | .hbm, ⟨65, _⟩ => ⟨S_, .f32⟩
  | .hbm, ⟨66, _⟩ => ⟨S64, .f32⟩
  | .hbm, ⟨67, _⟩ => ⟨S64, .i1⟩
  | .hbm, ⟨68, _⟩ => ⟨S64, .f32⟩
  | .hbm, ⟨69, _⟩ => ⟨S_, .f32⟩
  | .hbm, ⟨70, _⟩ => ⟨S64, .f32⟩
  | .hbm, ⟨71, _⟩ => ⟨S64, .i1⟩
  | .hbm, ⟨72, _⟩ => ⟨S64, .f32⟩
  | .hbm, ⟨73, _⟩ => ⟨S_, .f32⟩
  | .hbm, ⟨74, _⟩ => ⟨S_, .f32⟩
  | .hbm, ⟨75, _⟩ => ⟨S64, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .i1⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | _, _ => ⟨S64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_cst_4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_cst_6 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_7 : Ref sig .tc := ⟨.hbm, 38, rfl⟩
abbrev main_v21 : Ref sig .tc := ⟨.hbm, 39, rfl⟩
abbrev main_v22 : Ref sig .tc := ⟨.hbm, 40, rfl⟩
abbrev main_cst_8 : Ref sig .tc := ⟨.hbm, 41, rfl⟩
abbrev main_v23 : Ref sig .tc := ⟨.hbm, 42, rfl⟩
abbrev main_v24 : Ref sig .tc := ⟨.hbm, 43, rfl⟩
abbrev main_cst_9 : Ref sig .tc := ⟨.hbm, 44, rfl⟩
abbrev main_v25 : Ref sig .tc := ⟨.hbm, 45, rfl⟩
abbrev main_cst_10 : Ref sig .tc := ⟨.hbm, 46, rfl⟩
abbrev main_v26 : Ref sig .tc := ⟨.hbm, 47, rfl⟩
abbrev main_cst_11 : Ref sig .tc := ⟨.hbm, 48, rfl⟩
abbrev main_v27 : Ref sig .tc := ⟨.hbm, 49, rfl⟩
abbrev main_v28 : Ref sig .tc := ⟨.hbm, 50, rfl⟩
abbrev main_cst_12 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_13 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_14 : Ref sig .tc := ⟨.hbm, 59, rfl⟩
abbrev main_v35 : Ref sig .tc := ⟨.hbm, 60, rfl⟩
abbrev main_v36 : Ref sig .tc := ⟨.hbm, 61, rfl⟩
abbrev main_cst_15 : Ref sig .tc := ⟨.hbm, 62, rfl⟩
abbrev main_v37 : Ref sig .tc := ⟨.hbm, 63, rfl⟩
abbrev main_v38 : Ref sig .tc := ⟨.hbm, 64, rfl⟩
abbrev main_cst_16 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_17 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_18 : Ref sig .tc := ⟨.hbm, 73, rfl⟩
abbrev main_v45 : Ref sig .tc := ⟨.hbm, 74, rfl⟩
abbrev main_v46 : Ref sig .tc := ⟨.hbm, 75, rfl⟩
abbrev main_cst_19 : Ref sig .tc := ⟨.hbm, 76, rfl⟩
abbrev main_v47 : Ref sig .tc := ⟨.hbm, 77, rfl⟩
abbrev main_cst_20 : Ref sig .tc := ⟨.hbm, 78, rfl⟩
abbrev main_v48 : Ref sig .tc := ⟨.hbm, 79, rfl⟩
abbrev main_v49 : Ref sig .tc := ⟨.hbm, 80, rfl⟩
abbrev main_cst_21 : Ref sig .tc := ⟨.hbm, 81, rfl⟩
abbrev main_v50 : Ref sig .tc := ⟨.hbm, 82, rfl⟩
abbrev main_v51 : Ref sig .tc := ⟨.hbm, 83, rfl⟩
abbrev main_cst_22 : Ref sig .tc := ⟨.hbm, 84, rfl⟩
abbrev main_v52 : Ref sig .tc := ⟨.hbm, 85, rfl⟩

abbrev nD : Nat := 1
abbrev τ : Topo := Topo.v7x

variable {F : FTy → Type} [FloatOps F]

class Facts₀ : Prop where
  bcast_S_S64x1x512x512 : S_.BroadcastsInDim S64x1x512x512 (![] : Fin 0 → Fin S64x1x512x512.rank)
  bcast_S_S64 : S_.BroadcastsInDim S64 (![] : Fin 0 → Fin S64.rank)
  reducesTo_S64_S_d0 : S64.ReducesTo [0] S_
  h_S_ : 0 < S_.numel
  reducesTo_S64x1x512x512_S64_d1_2_3 : S64x1x512x512.ReducesTo [1, 2, 3] S64

variable [Facts₀]

class Facts : Prop extends Facts₀ where

variable [Facts]
-- ==== Proof.KPieces.lean ====
import proofs.«153003_j76931454206569_1_alg».proof.Proof.Gen.KernelIdeal.Frame
import Idealize.ShloMosaic.Lib.Pipeline.Value
import Idealize.ShloMosaic.Lib.Tactic

/-!
# What one grid point leaves in the four accumulators

At a grid point `(half, tile)` the body holds the point's block of logits `x0` and of the mask `x1`
(`[32, 1, 64, 512]` each) and four `[32, 1]` accumulators. On the first tile of a half it first stores
zeros into the accumulators and then adds the tile's four partial sums to what it reads back (the zeros);
on every later tile it adds them to what the tile before left. So, as values:

* on a first tile the accumulators end at `pay (zeros)`,
* on a later tile at `pay (previous contents)`,

where `pay` is the body's own arithmetic for that accumulator (the sum over the tile's rows and
columns added to the accumulator's old contents). This module reads the stores of each case back as
those values, for any float family.
-/

noncomputable section

open Idealize.ShloMosaic Idealize.ShloMosaic.TcCoe Idealize.SL.Sem
open Idealize.ShloMosaic.Pipeline (Dat)

namespace Cert.KernelIdeal.DiceValue

open Cert.KernelIdeal Cert.KernelIdeal.Gen

variable {F : FTy → Type} [FloatOps F]

/-- The zero offsets of a `[32, 1]` accumulator and of a `[32, 1, 64, 512]` block. -/
theorem hz2 : (![0, 0] : Fin 2 → Nat) = fun _ => 0 := funext fun a => by fin_cases a <;> rfl
theorem hz4 : (![0, 0, 0, 0] : Fin 4 → Nat) = fun _ => 0 := funext fun a => by fin_cases a <;> rfl

/-! ## A later tile: the old contents plus the tile's sums -/

theorem out_B_2 (c : Dev nD) (i : grid0.Coords) (a2 : Memref sig .tc .vmem S32x1x64x512 .f32) (h2 : a2.IsWhole) (a3 : Memref sig .tc .vmem S32x1x64x512 .f32) (h3 : a3.IsWhole) (a4 : Memref sig .tc .vmem S32x1 .f32) (h4 : a4.IsWhole) (a5 : Memref sig .tc .vmem S32x1 .f32) (h5 : a5.IsWhole) (a6 : Memref sig .tc .vmem S32x1 .f32) (h6 : a6.IsWhole) (a7 : Memref sig .tc .vmem S32x1 .f32) (h7 : a7.IsWhole) (hc : ¬cond0_0 i)
    (x0 x1 : Vec F S32x1x64x512 .f32) (xo2 xo3 xo4 xo5 : Vec F S32x1 .f32) :
    out0_B_2 c i a2 h2 a3 h3 a4 h4 a5 h5 a6 h6 a7 h7 hc x0 x1 xo2 xo3 xo4 xo5 = k0_pay8 x0 x1 xo2 := by
  unfold out0_B_2
  rw [View.read_writes_eq_canon _ _ _ (cover0_B_2 c i a2 h2 a3 h3 a4 h4 a5 h5 a6 h6 a7 h7 hc x0 x1 xo2 xo3 xo4 xo5)]
  unfold kernelRun0_B
  dsimp only
  sl_unfold_words
  rw [View.canon_unit_zero hz2]
  simp only [View.readAt_eq_ld, h2.read_unread, h3.read_unread, h4.read_unread, h5.read_unread, h6.read_unread, h7.read_unread,
    View.ld_unit_zero (S := S32x1) hz2, View.ld_unit_zero (S := S32x1x64x512) hz4]

theorem out_B_3 (c : Dev nD) (i : grid0.Coords) (a2 : Memref sig .tc .vmem S32x1x64x512 .f32) (h2 : a2.IsWhole) (a3 : Memref sig .tc .vmem S32x1x64x512 .f32) (h3 : a3.IsWhole) (a4 : Memref sig .tc .vmem S32x1 .f32) (h4 : a4.IsWhole) (a5 : Memref sig .tc .vmem S32x1 .f32) (h5 : a5.IsWhole) (a6 : Memref sig .tc .vmem S32x1 .f32) (h6 : a6.IsWhole) (a7 : Memref sig .tc .vmem S32x1 .f32) (h7 : a7.IsWhole) (hc : ¬cond0_0 i)
    (x0 x1 : Vec F S32x1x64x512 .f32) (xo2 xo3 xo4 xo5 : Vec F S32x1 .f32) :
    out0_B_3 c i a2 h2 a3 h3 a4 h4 a5 h5 a6 h6 a7 h7 hc x0 x1 xo2 xo3 xo4 xo5 = k0_pay9 x0 xo3 := by
  unfold out0_B_3
  rw [View.read_writes_eq_canon _ _ _ (cover0_B_3 c i a2 h2 a3 h3 a4 h4 a5 h5 a6 h6 a7 h7 hc x0 x1 xo2 xo3 xo4 xo5)]
  unfold kernelRun0_B
  dsimp only
  sl_unfold_words
  rw [View.canon_unit_zero hz2]
  simp only [View.readAt_eq_ld, h2.read_unread, h3.read_unread, h4.read_unread, h5.read_unread, h6.read_unread, h7.read_unread,
    View.ld_unit_zero (S := S32x1) hz2, View.ld_unit_zero (S := S32x1x64x512) hz4]

theorem out_B_4 (c : Dev nD) (i : grid0.Coords) (a2 : Memref sig .tc .vmem S32x1x64x512 .f32) (h2 : a2.IsWhole) (a3 : Memref sig .tc .vmem S32x1x64x512 .f32) (h3 : a3.IsWhole) (a4 : Memref sig .tc .vmem S32x1 .f32) (h4 : a4.IsWhole) (a5 : Memref sig .tc .vmem S32x1 .f32) (h5 : a5.IsWhole) (a6 : Memref sig .tc .vmem S32x1 .f32) (h6 : a6.IsWhole) (a7 : Memref sig .tc .vmem S32x1 .f32) (h7 : a7.IsWhole) (hc : ¬cond0_0 i)
    (x0 x1 : Vec F S32x1x64x512 .f32) (xo2 xo3 xo4 xo5 : Vec F S32x1 .f32) :
    out0_B_4 c i a2 h2 a3 h3 a4 h4 a5 h5 a6 h6 a7 h7 hc x0 x1 xo2 xo3 xo4 xo5 = k0_pay10 x1 xo4 := by
  unfold out0_B_4
  rw [View.read_writes_eq_canon _ _ _ (cover0_B_4 c i a2 h2 a3 h3 a4 h4 a5 h5 a6 h6 a7 h7 hc x0 x1 xo2 xo3 xo4 xo5)]
  unfold kernelRun0_B
  dsimp only
  sl_unfold_words
  rw [View.canon_unit_zero hz2]
  simp only [View.readAt_eq_ld, h2.read_unread, h3.read_unread, h4.read_unread, h5.read_unread, h6.read_unread, h7.read_unread,
    View.ld_unit_zero (S := S32x1) hz2, View.ld_unit_zero (S := S32x1x64x512) hz4]

theorem out_B_5 (c : Dev nD) (i : grid0.Coords) (a2 : Memref sig .tc .vmem S32x1x64x512 .f32) (h2 : a2.IsWhole) (a3 : Memref sig .tc .vmem S32x1x64x512 .f32) (h3 : a3.IsWhole) (a4 : Memref sig .tc .vmem S32x1 .f32) (h4 : a4.IsWhole) (a5 : Memref sig .tc .vmem S32x1 .f32) (h5 : a5.IsWhole) (a6 : Memref sig .tc .vmem S32x1 .f32) (h6 : a6.IsWhole) (a7 : Memref sig .tc .vmem S32x1 .f32) (h7 : a7.IsWhole) (hc : ¬cond0_0 i)
    (x0 x1 : Vec F S32x1x64x512 .f32) (xo2 xo3 xo4 xo5 : Vec F S32x1 .f32) :
    out0_B_5 c i a2 h2 a3 h3 a4 h4 a5 h5 a6 h6 a7 h7 hc x0 x1 xo2 xo3 xo4 xo5 = k0_pay1 (k0_pay7 x0) xo5 := by
  unfold out0_B_5
  rw [View.read_writes_eq_canon _ _ _ (cover0_B_5 c i a2 h2 a3 h3 a4 h4 a5 h5 a6 h6 a7 h7 hc x0 x1 xo2 xo3 xo4 xo5)]
  unfold kernelRun0_B
  dsimp only
  sl_unfold_words
  rw [View.canon_unit_zero hz2]
  simp only [View.readAt_eq_ld, h2.read_unread, h3.read_unread, h4.read_unread, h5.read_unread, h6.read_unread, h7.read_unread,
    View.ld_unit_zero (S := S32x1) hz2, View.ld_unit_zero (S := S32x1x64x512) hz4]

/-! ## A first tile: zeros plus the tile's sums -/

theorem out_A_2 (c : Dev nD) (i : grid0.Coords) (a2 : Memref sig .tc .vmem S32x1x64x512 .f32) (h2 : a2.IsWhole) (a3 : Memref sig .tc .vmem S32x1x64x512 .f32) (h3 : a3.IsWhole) (a4 : Memref sig .tc .vmem S32x1 .f32) (h4 : a4.IsWhole) (a5 : Memref sig .tc .vmem S32x1 .f32) (h5 : a5.IsWhole) (a6 : Memref sig .tc .vmem S32x1 .f32) (h6 : a6.IsWhole) (a7 : Memref sig .tc .vmem S32x1 .f32) (h7 : a7.IsWhole) (hc : cond0_0 i)
    (x0 x1 : Vec F S32x1x64x512 .f32) :
    out0_A_2 c i a2 h2 a3 h3 a4 h4 a5 h5 a6 h6 a7 h7 hc x0 x1 = k0_pay8 x0 x1 (k0_pay2 (F := F)) := by
  unfold out0_A_2
  rw [View.read_writes_eq_canon _ _ _ (cover0_A_2 c i a2 h2 a3 h3 a4 h4 a5 h5 a6 h6 a7 h7 hc x0 x1)]
  unfold kernelRun0_A
  dsimp only
  sl_unfold_words
  rw [View.canon_cons_unit_zero (S := S32x1) hz2, View.readCov_unit_zero (S := S32x1) _ hz2]
  simp only [View.readAt_eq_ld, h2.read_unread, h3.read_unread, h4.read_unread, h5.read_unread, h6.read_unread, h7.read_unread,
    View.ld_unit_zero (S := S32x1) hz2, View.ld_unit_zero (S := S32x1x64x512) hz4]

theorem out_A_3 (c : Dev nD) (i : grid0.Coords) (a2 : Memref sig .tc .vmem S32x1x64x512 .f32) (h2 : a2.IsWhole) (a3 : Memref sig .tc .vmem S32x1x64x512 .f32) (h3 : a3.IsWhole) (a4 : Memref sig .tc .vmem S32x1 .f32) (h4 : a4.IsWhole) (a5 : Memref sig .tc .vmem S32x1 .f32) (h5 : a5.IsWhole) (a6 : Memref sig .tc .vmem S32x1 .f32) (h6 : a6.IsWhole) (a7 : Memref sig .tc .vmem S32x1 .f32) (h7 : a7.IsWhole) (hc : cond0_0 i)
    (x0 x1 : Vec F S32x1x64x512 .f32) :
    out0_A_3 c i a2 h2 a3 h3 a4 h4 a5 h5 a6 h6 a7 h7 hc x0 x1 = k0_pay9 x0 (k0_pay3 (F := F)) := by
  unfold out0_A_3
  rw [View.read_writes_eq_canon _ _ _ (cover0_A_3 c i a2 h2 a3 h3 a4 h4 a5 h5 a6 h6 a7 h7 hc x0 x1)]
  unfold kernelRun0_A
  dsimp only
  sl_unfold_words
  rw [View.canon_cons_unit_zero (S := S32x1) hz2, View.readCov_unit_zero (S := S32x1) _ hz2]
  simp only [View.readAt_eq_ld, h2.read_unread, h3.read_unread, h4.read_unread, h5.read_unread, h6.read_unread, h7.read_unread,
    View.ld_unit_zero (S := S32x1) hz2, View.ld_unit_zero (S := S32x1x64x512) hz4]

theorem out_A_4 (c : Dev nD) (i : grid0.Coords) (a2 : Memref sig .tc .vmem S32x1x64x512 .f32) (h2 : a2.IsWhole) (a3 : Memref sig .tc .vmem S32x1x64x512 .f32) (h3 : a3.IsWhole) (a4 : Memref sig .tc .vmem S32x1 .f32) (h4 : a4.IsWhole) (a5 : Memref sig .tc .vmem S32x1 .f32) (h5 : a5.IsWhole) (a6 : Memref sig .tc .vmem S32x1 .f32) (h6 : a6.IsWhole) (a7 : Memref sig .tc .vmem S32x1 .f32) (h7 : a7.IsWhole) (hc : cond0_0 i)
    (x0 x1 : Vec F S32x1x64x512 .f32) :
    out0_A_4 c i a2 h2 a3 h3 a4 h4 a5 h5 a6 h6 a7 h7 hc x0 x1 = k0_pay10 x1 (k0_pay4 (F := F)) := by
  unfold out0_A_4
  rw [View.read_writes_eq_canon _ _ _ (cover0_A_4 c i a2 h2 a3 h3 a4 h4 a5 h5 a6 h6 a7 h7 hc x0 x1)]
  unfold kernelRun0_A
  dsimp only
  sl_unfold_words
  rw [View.canon_cons_unit_zero (S := S32x1) hz2, View.readCov_unit_zero (S := S32x1) _ hz2]
  simp only [View.readAt_eq_ld, h2.read_unread, h3.read_unread, h4.read_unread, h5.read_unread, h6.read_unread, h7.read_unread,
    View.ld_unit_zero (S := S32x1) hz2, View.ld_unit_zero (S := S32x1x64x512) hz4]

theorem out_A_5 (c : Dev nD) (i : grid0.Coords) (a2 : Memref sig .tc .vmem S32x1x64x512 .f32) (h2 : a2.IsWhole) (a3 : Memref sig .tc .vmem S32x1x64x512 .f32) (h3 : a3.IsWhole) (a4 : Memref sig .tc .vmem S32x1 .f32) (h4 : a4.IsWhole) (a5 : Memref sig .tc .vmem S32x1 .f32) (h5 : a5.IsWhole) (a6 : Memref sig .tc .vmem S32x1 .f32) (h6 : a6.IsWhole) (a7 : Memref sig .tc .vmem S32x1 .f32) (h7 : a7.IsWhole) (hc : cond0_0 i)
    (x0 x1 : Vec F S32x1x64x512 .f32) :
    out0_A_5 c i a2 h2 a3 h3 a4 h4 a5 h5 a6 h6 a7 h7 hc x0 x1 = k0_pay1 (k0_pay7 x0) (k0_pay5 (F := F)) := by
  unfold out0_A_5
  rw [View.read_writes_eq_canon _ _ _ (cover0_A_5 c i a2 h2 a3 h3 a4 h4 a5 h5 a6 h6 a7 h7 hc x0 x1)]
  unfold kernelRun0_A
  dsimp only
  sl_unfold_words
  rw [View.canon_cons_unit_zero (S := S32x1) hz2, View.readCov_unit_zero (S := S32x1) _ hz2]
  simp only [View.readAt_eq_ld, h2.read_unread, h3.read_unread, h4.read_unread, h5.read_unread, h6.read_unread, h7.read_unread,
    View.ld_unit_zero (S := S32x1) hz2, View.ld_unit_zero (S := S32x1x64x512) hz4]

end Cert.KernelIdeal.DiceValue

end
-- ==== Proof.KPayload.lean ====
import proofs.«153003_j76931454206569_1_alg».proof.Proof.Gen.KernelIdeal.Skeleton
import Idealize.ShloMosaic.Lib.Pipeline.Value
import Idealize.ShloMosaic.Lib.ValueIdx
import Idealize.ShloMosaic.PureOps.Ideal.Laws

/-!
# The body's arithmetic at one accumulator entry

At the extended reals the two lane reductions of a `[32, 1, 64, 512]` block (over the 512 columns, then over
the 64 rows) are, at sample-in-block `r`, the double sum over the block's rows and columns (`tileSum_apply`).
So each accumulator's new entry at `r` is its old entry plus the tile's double sum of the summand that
accumulator collects: `σ(x)·g`, `σ(x)·σ(x)`, `g`, `σ(x)`, with `σ` the logistic function; and the zeros a first
tile stores are the extended real `0`.
-/

noncomputable section

open Idealize.ShloMosaic Idealize.ShloMosaic.TcCoe Idealize.ShloMosaic.ValueIdx Idealize.SL.Sem
open scoped BigOperators

namespace Cert.KernelIdeal.DiceValue

open Cert.KernelIdeal Cert.KernelIdeal.Gen

/-- The two lane sums of a block, at sample-in-block `r`: the sum over the block's 64 rows of the sums over its 512 columns. -/
theorem tileSum_apply (v : FVec Ideal S32x1x64x512 .f32) (h3 : S32x1x64x512.Reduces [3] S32x1x64) (h2 : S32x1x64.Reduces [2] S32x1)
    (hφ : FKind.Formats .f32) (hacc : (0x00000000#32 : BitVec 32) = FKind.add.neutral .f32 hφ) (r : Fin 32) :
    multiReduction .add [2] S32x1 (multiReduction .add [3] S32x1x64 v 0x00000000#32 h3 hφ hacc) 0x00000000#32 h2 hφ hacc (ix2 r (0 : Fin 1))
      = ∑ row : Fin 64, ∑ w : Fin 512, v (ix4 r (0 : Fin 1) row w) := by
  refine (Ideal.multiReduction_add_single _ 0x00000000#32 h2 hφ hacc (ix2 r (0 : Fin 1))).trans ?_
  refine Finset.sum_congr rfl fun row _ => ?_
  refine (Ideal.multiReduction_add_single v 0x00000000#32 h3 hφ hacc _).trans ?_
  refine Finset.sum_congr rfl fun w _ => congrArg v ?_
  funext a
  match a with
  | ⟨0, _⟩ => rfl
  | ⟨1, _⟩ => rfl
  | ⟨2, _⟩ => rfl
  | ⟨3, _⟩ => rfl

/-- The intersection accumulator: old entry plus the tile's `Σ σ(x)·g`. -/
theorem pay8_apply (x0 x1 : FVec Ideal S32x1x64x512 .f32) (acc : FVec Ideal S32x1 .f32) (r : Fin 32) :
    k0_pay8 (F := Ideal) x0 x1 acc (ix2 r (0 : Fin 1))
      = acc (ix2 r (0 : Fin 1)) + ∑ row : Fin 64, ∑ w : Fin 512, Ideal.logistic (x0 (ix4 r (0 : Fin 1) row w)) * x1 (ix4 r (0 : Fin 1) row w) := by
  unfold k0_pay8 k0_pay6
  refine (congrArg₂ (· + ·) (congrFun (shapeCast_self acc _) _) (tileSum_apply _ _ _ _ _ r)).trans ?_
  rfl

/-- The squared-prediction accumulator: old entry plus the tile's `Σ σ(x)·σ(x)`. -/
theorem pay9_apply (x0 : FVec Ideal S32x1x64x512 .f32) (acc : FVec Ideal S32x1 .f32) (r : Fin 32) :
    k0_pay9 (F := Ideal) x0 acc (ix2 r (0 : Fin 1))
      = acc (ix2 r (0 : Fin 1)) + ∑ row : Fin 64, ∑ w : Fin 512, Ideal.logistic (x0 (ix4 r (0 : Fin 1) row w)) * Ideal.logistic (x0 (ix4 r (0 : Fin 1) row w)) := by
  unfold k0_pay9 k0_pay6
  refine (congrArg₂ (· + ·) (congrFun (shapeCast_self acc _) _) (tileSum_apply _ _ _ _ _ r)).trans ?_
  rfl

/-- The mask accumulator: old entry plus the tile's `Σ g`. -/
theorem pay10_apply (x1 : FVec Ideal S32x1x64x512 .f32) (acc : FVec Ideal S32x1 .f32) (r : Fin 32) :
    k0_pay10 (F := Ideal) x1 acc (ix2 r (0 : Fin 1))
      = acc (ix2 r (0 : Fin 1)) + ∑ row : Fin 64, ∑ w : Fin 512, x1 (ix4 r (0 : Fin 1) row w) := by
  unfold k0_pay10
  refine (congrArg₂ (· + ·) (congrFun (shapeCast_self acc _) _) (tileSum_apply _ _ _ _ _ r)).trans ?_
  rfl

/-- The prediction accumulator: old entry plus the tile's `Σ σ(x)`. -/
theorem pay1_apply (x0 : FVec Ideal S32x1x64x512 .f32) (acc : FVec Ideal S32x1 .f32) (r : Fin 32) :
    k0_pay1 (F := Ideal) (k0_pay7 x0) acc (ix2 r (0 : Fin 1))
      = acc (ix2 r (0 : Fin 1)) + ∑ row : Fin 64, ∑ w : Fin 512, Ideal.logistic (x0 (ix4 r (0 : Fin 1) row w)) := by
  unfold k0_pay1 k0_pay7 k0_pay6
  refine (congrArg₂ (· + ·) (congrFun (shapeCast_self acc _) _) (tileSum_apply _ _ _ _ _ r)).trans ?_
  rfl

/-- The zeros a first tile stores are the extended real zero. -/
theorem pay2_apply (j : S32x1.Idx) : (k0_pay2 (F := Ideal)) j = 0 := Ideal.ofBits_zero_f32
theorem pay3_apply (j : S32x1.Idx) : (k0_pay3 (F := Ideal)) j = 0 := Ideal.ofBits_zero_f32
theorem pay4_apply (j : S32x1.Idx) : (k0_pay4 (F := Ideal)) j = 0 := Ideal.ofBits_zero_f32
theorem pay5_apply (j : S32x1.Idx) : (k0_pay5 (F := Ideal)) j = 0 := Ideal.ofBits_zero_f32

end Cert.KernelIdeal.DiceValue

end
-- ==== Proof.Spec.lean ====
import Idealize.ShloMosaic.PureOps.Ideal
import Idealize.ShloMosaic.Lib.ValueIdx
import Mathlib.Algebra.BigOperators.Fin

/-!
# The dice sums and the two losses, as functions of the four arguments

Per sample `b` the segmentation head needs four sums over the `512 × 512` positions of that sample's
one channel, taken of `σ = logistic` of the logits `x` and of the ground-truth mask `g`:

* `sumPG x g b = Σ σ(x)·g` (the intersection),
* `sumPP x b   = Σ σ(x)·σ(x)`,
* `sumGG g b   = Σ g·g` and `sumG g b = Σ g`,
* `sumP x b    = Σ σ(x)`.

For a mask whose every entry is `0` or `1` the squares are the entries themselves, so `sumGG = sumG`
(`sumGG_eq_sumG`): that is the one place where the two programs differ in what they add up.

`segLoss` is the selected-sample dice loss as a function of the class probabilities, the labels and those
four per-sample sums; `clsLoss` is the mean binary cross-entropy of the clipped class probabilities.
Both are written with the host operations themselves, read at the extended reals.
-/

noncomputable section

namespace Cert.Dice

open Idealize.ShloMosaic Idealize.ShloMosaic.ValueIdx
open scoped BigOperators

/-- The two big arguments: `[64, 1, 512, 512]`. -/
abbrev A4 : Shape := ⟨4, ![64, 1, 512, 512]⟩
/-- One entry per sample: `[64]`. -/
abbrev B1 : Shape := ⟨1, ![64]⟩
/-- One entry per sample, as a column: `[64, 1]`. -/
abbrev B2 : Shape := ⟨2, ![64, 1]⟩
/-- A scalar. -/
abbrev S0 : Shape := ⟨0, ![]⟩

/-- Position `(r, w)` of sample `b`'s one channel. -/
abbrev at4 (b : Fin 64) (r w : Fin 512) : A4.Idx := ix4 b (0 : Fin 1) r w

/-- `Σ σ(x)·g` over sample `b`. -/
def sumPG (x g : A4.Idx → EReal) (b : Fin 64) : EReal :=
  ∑ r : Fin 512, ∑ w : Fin 512, Ideal.logistic (x (at4 b r w)) * g (at4 b r w)

/-- `Σ σ(x)·σ(x)` over sample `b`. -/
def sumPP (x : A4.Idx → EReal) (b : Fin 64) : EReal :=
  ∑ r : Fin 512, ∑ w : Fin 512, Ideal.logistic (x (at4 b r w)) * Ideal.logistic (x (at4 b r w))

/-- `Σ g` over sample `b`. -/
def sumG (g : A4.Idx → EReal) (b : Fin 64) : EReal :=
  ∑ r : Fin 512, ∑ w : Fin 512, g (at4 b r w)

/-- `Σ g·g` over sample `b`. -/
def sumGG (g : A4.Idx → EReal) (b : Fin 64) : EReal :=
  ∑ r : Fin 512, ∑ w : Fin 512, g (at4 b r w) * g (at4 b r w)

/-- `Σ σ(x)` over sample `b`. -/
def sumP (x : A4.Idx → EReal) (b : Fin 64) : EReal :=
  ∑ r : Fin 512, ∑ w : Fin 512, Ideal.logistic (x (at4 b r w))

/-- An entry that is `0` or `1` is its own square. -/
theorem sq_of_binary {a : EReal} (h : a = 0 ∨ a = 1) : a * a = a := by
  rcases h with rfl | rfl
  · exact mul_zero 0
  · exact mul_one 1

/-- For a mask of zeros and ones the sum of squares is the sum of entries. -/
theorem sumGG_eq_sumG (g : A4.Idx → EReal) (hg : ∀ i, g i = 0 ∨ g i = 1) (b : Fin 64) :
    sumGG g b = sumG g b :=
  Finset.sum_congr rfl fun r _ => Finset.sum_congr rfl fun w _ => sq_of_binary (hg _)

/-! ## The two losses, written with the host operations -/

section Losses

variable {F : FTy → Type} [FloatOps F]
variable (hb : S0.BroadcastsInDim B1 (![] : Fin 0 → Fin B1.rank)) (hr : B1.ReducesTo [0] S0) (h0 : 0 < S0.numel)

/-- The classification loss: minus the mean over the 64 samples of
    `lab · log(clip pc) + (1 − lab) · log(1 − clip pc)`, the class probability clipped to `[1e-7, 1 − 1e-7]`. -/
def clsLoss (pc : FVec F B1 .f32) (lab : IVec B1 32) : FVec F S0 .f32 :=
  Host.negf (Host.divf (Host.reduceAdd (addf (mulf (sitofp (F := F) .f32 lab) (Host.log (minimumf (broadcastInDim B1 ![] hb (id (constant S0 .f32 0x3F7FFFFE#32))) (maximumf (broadcastInDim B1 ![] hb (id (constant S0 .f32 0x33D6BF95#32))) pc)))) (mulf (subf (broadcastInDim B1 ![] hb (constant S0 .f32 0x3F800000#32)) (sitofp (F := F) .f32 lab)) (Host.log (subf (broadcastInDim B1 ![] hb (constant S0 .f32 0x3F800000#32)) (minimumf (broadcastInDim B1 ![] hb (id (constant S0 .f32 0x3F7FFFFE#32))) (maximumf (broadcastInDim B1 ![] hb (id (constant S0 .f32 0x33D6BF95#32))) pc)))))) (constant S0 .f32 0x00000000#32) hr h0) (constant S0 .f32 0x42800000#32))

/-- The segmentation loss from the four per-sample sums: with `sel = [pc ≥ 1/2]`, `n = Σ sel`,
    `dice = (2·pg + 1e-5) / (pp + gg + 1e-5)` where the label is one and `25 / (ps + 25)` elsewhere, it is
    `(n − Σ sel·dice) / max(n, 1)` when `n > 0` and `1e-4` otherwise. -/
def segLoss (pc : FVec F B1 .f32) (lab : IVec B1 32) (pg pp gg ps : FVec F B1 .f32) : FVec F S0 .f32 :=
  select (cmpf (F := F) .ogt (Host.reduceAdd (uitofp (F := F) .f32 (cmpf (F := F) .oge pc (broadcastInDim B1 ![] hb (constant S0 .f32 0x3F000000#32)))) (constant S0 .f32 0x00000000#32) hr h0) (constant S0 .f32 0x00000000#32)) (Host.divf (subf (Host.reduceAdd (uitofp (F := F) .f32 (cmpf (F := F) .oge pc (broadcastInDim B1 ![] hb (constant S0 .f32 0x3F000000#32)))) (constant S0 .f32 0x00000000#32) hr h0) (Host.reduceAdd (mulf (uitofp (F := F) .f32 (cmpf (F := F) .oge pc (broadcastInDim B1 ![] hb (constant S0 .f32 0x3F000000#32)))) (select (cmpf (F := F) .oeq (sitofp (F := F) .f32 lab) (broadcastInDim B1 ![] hb (constant S0 .f32 0x3F800000#32))) (Host.divf (addf (mulf (broadcastInDim B1 ![] hb (constant S0 .f32 0x40000000#32)) pg) (broadcastInDim B1 ![] hb (constant S0 .f32 0x3727C5AC#32))) (addf (addf pp gg) (broadcastInDim B1 ![] hb (constant S0 .f32 0x3727C5AC#32)))) (Host.divf (broadcastInDim B1 ![] hb (constant S0 .f32 0x41C80000#32)) (addf ps (broadcastInDim B1 ![] hb (constant S0 .f32 0x41C80000#32)))))) (constant S0 .f32 0x00000000#32) hr h0)) (maximumf (Host.reduceAdd (uitofp (F := F) .f32 (cmpf (F := F) .oge pc (broadcastInDim B1 ![] hb (constant S0 .f32 0x3F000000#32)))) (constant S0 .f32 0x00000000#32) hr h0) (constant S0 .f32 0x3F800000#32))) (constant S0 .f32 0x38D1B717#32)

end Losses

end Cert.Dice

end
-- ==== Proof.LibTileSums.lean ====
import Idealize.ShloMosaic.PureOps.Ideal
import Mathlib.Logic.Equiv.Fin.Basic
import Mathlib.Data.Fintype.BigOperators
import Mathlib.Algebra.BigOperators.Fin

/-!
Sums over the extended reals, reindexed.

Three facts about finite sums in a commutative additive monoid with a multiplication that has a
zero and a one, stated at the extended reals and over plain `Fin`-indexed functions:

* a sum over `A * B` positions is the sum over `A` tiles of the sums over the `B` positions of each
  tile (`sum_tiles`);
* an accumulator that starts from `0 + s 0` and adds `s (j + 1)` at each later step holds the sum of
  the terms seen so far (`fold_eq_sum` and its variants);
* a sum weighted by the indicator of one position picks out that position's term, or is `0` when
  the position lies outside the range (`onehot_sum`, `onehot_sum'`).

Nothing here asks a term to be finite: only associativity and commutativity of `+`, `0 + x = x`,
`0 * x = 0` and `1 * x = x` are used.
-/

namespace Cert.LibTileSums

open scoped BigOperators

/-! ### Tiles -/

/-- Position `r` of tile `i` lies below `A * B`. -/
theorem tile_lt {A B n : ℕ} (h : A * B = n) (i : Fin A) (r : Fin B) : i.val * B + r.val < n := by
  subst h
  calc i.val * B + r.val < i.val * B + B := Nat.add_lt_add_left r.isLt _
    _ = (i.val + 1) * B := (Nat.succ_mul _ _).symm
    _ ≤ A * B := Nat.mul_le_mul_right _ i.isLt

/-- A sum over `n = A * B` positions, tile by tile: tile `i` holds the positions `i * B + r`. -/
theorem sum_tiles {A B n : ℕ} (h : A * B = n) (f : Fin n → EReal) :
    ∑ i : Fin A, ∑ r : Fin B, f ⟨i.val * B + r.val, tile_lt h i r⟩ = ∑ k : Fin n, f k := by
  subst h
  rw [← Fintype.sum_prod_type' (f := fun (i : Fin A) (r : Fin B) =>
        f ⟨i.val * B + r.val, tile_lt rfl i r⟩),
    ← Equiv.sum_comp (finProdFinEquiv (m := A) (n := B)) f]
  refine Finset.sum_congr rfl fun p _ => congrArg f (Fin.ext ?_)
  show p.1.val * B + p.2.val = p.2.val + B * p.1.val
  rw [Nat.mul_comm, Nat.add_comm]

/-- The same with the tile sums named: if `g i` is the sum over tile `i`, the sum of the `g i` is the
    whole sum. -/
theorem sum_tiles_of {A B n : ℕ} (h : A * B = n) (f : Fin n → EReal) (g : Fin A → EReal)
    (hg : ∀ i : Fin A, g i = ∑ r : Fin B, f ⟨i.val * B + r.val, tile_lt h i r⟩) :
    ∑ i : Fin A, g i = ∑ k : Fin n, f k := by
  rw [← sum_tiles h f]
  exact Finset.sum_congr rfl fun i _ => hg i

/-! ### The running sum -/

/-- `0 + x = x`. -/
theorem zero_add_eq (x : EReal) : 0 + x = x := zero_add x

/-- The accumulator by recursion: `0 + s 0` at the first step, the previous value plus the next term
    after it. -/
noncomputable def accum (s : ℕ → EReal) : ℕ → EReal
  | 0 => 0 + s 0
  | j + 1 => accum s j + s (j + 1)

@[simp] theorem accum_zero (s : ℕ → EReal) : accum s 0 = 0 + s 0 := rfl

@[simp] theorem accum_succ (s : ℕ → EReal) (j : ℕ) : accum s (j + 1) = accum s j + s (j + 1) := rfl

/-- The accumulator after step `j` is the sum of the terms `0 … j`. -/
theorem accum_eq_sum (s : ℕ → EReal) (j : ℕ) : accum s j = ∑ k : Fin (j + 1), s k.val := by
  induction j with
  | zero => simp
  | succ j ih =>
    rw [accum_succ, ih, Fin.sum_univ_castSucc (f := fun k : Fin (j + 1 + 1) => s k.val)]
    rfl

/-- Any family that obeys the recursion up to step `m` is the running sum there: if
    `acc 0 = 0 + s 0` and `acc (j + 1) = acc j + s (j + 1)` for `j + 1 < m`, then
    `acc j = ∑ k : Fin (j + 1), s k` for `j < m`. -/
theorem fold_eq_sum (s acc : ℕ → EReal) (m : ℕ) (h0 : acc 0 = 0 + s 0)
    (hs : ∀ j, j + 1 < m → acc (j + 1) = acc j + s (j + 1)) :
    ∀ j, j < m → acc j = ∑ k : Fin (j + 1), s k.val := by
  intro j
  induction j with
  | zero => intro _; rw [h0]; simp
  | succ j ih =>
    intro hj
    rw [hs j hj, ih (Nat.lt_of_succ_lt hj),
      Fin.sum_univ_castSucc (f := fun k : Fin (j + 1 + 1) => s k.val)]
    rfl

/-- The last step of `fold_eq_sum`: after `m + 1` steps the accumulator holds the whole sum. -/
theorem fold_last (s acc : ℕ → EReal) (m : ℕ) (h0 : acc 0 = 0 + s 0)
    (hs : ∀ j, j + 1 < m + 1 → acc (j + 1) = acc j + s (j + 1)) :
    acc m = ∑ k : Fin (m + 1), s k.val :=
  fold_eq_sum s acc (m + 1) h0 hs m (Nat.lt_succ_self m)

/-- The same over `Fin`-indexed steps and terms. -/
theorem fold_fin_eq_sum {m : ℕ} (s acc : Fin (m + 1) → EReal) (h0 : acc 0 = 0 + s 0)
    (hs : ∀ j : Fin m, acc j.succ = acc j.castSucc + s j.succ) :
    acc (Fin.last m) = ∑ k : Fin (m + 1), s k := by
  let s' : ℕ → EReal := fun k => if hk : k < m + 1 then s ⟨k, hk⟩ else 0
  let acc' : ℕ → EReal := fun k => if hk : k < m + 1 then acc ⟨k, hk⟩ else 0
  have h0' : acc' 0 = 0 + s' 0 := by
    simp only [acc', s', Nat.zero_lt_succ, dite_true]
    exact h0
  have hs' : ∀ j, j + 1 < m + 1 → acc' (j + 1) = acc' j + s' (j + 1) := by
    intro j hj
    have hj' : j < m + 1 := Nat.lt_of_succ_lt hj
    simp only [acc', s', hj, hj', dite_true]
    exact hs ⟨j, Nat.lt_of_succ_lt_succ hj⟩
  have h := fold_last s' acc' m h0' hs'
  simp only [acc', s', Nat.lt_succ_self, dite_true] at h
  rw [show Fin.last m = ⟨m, Nat.lt_succ_self m⟩ from rfl, h]
  exact Finset.sum_congr rfl fun k _ => by simp [k.isLt]

/-! ### One position picked out -/

/-- A 32-bit word equals the word of a number below `2 ^ 32` exactly when its value is that number. -/
theorem eq_ofNat_iff (w : BitVec 32) {k : ℕ} (hk : k < 2 ^ 32) :
    w = BitVec.ofNat 32 k ↔ w.toNat = k := by
  constructor
  · intro h; rw [h, BitVec.toNat_ofNat, Nat.mod_eq_of_lt hk]
  · intro h; apply BitVec.eq_of_toNat_eq; rw [h, BitVec.toNat_ofNat, Nat.mod_eq_of_lt hk]

/-- The indicator-weighted sum with the term kept or replaced by `0`: it is the term at the word's
    value when that lies in range, and `0` otherwise. -/
theorem onehot_sum' {n : ℕ} (hn : n ≤ 2 ^ 32) (w : BitVec 32) (h : Fin n → EReal) :
    ∑ k : Fin n, (if w = BitVec.ofNat 32 k.val then h k else 0)
      = if hw : w.toNat < n then h ⟨w.toNat, hw⟩ else 0 := by
  have key : ∀ k : Fin n, w = BitVec.ofNat 32 k.val ↔ w.toNat = k.val := fun k =>
    eq_ofNat_iff w (Nat.lt_of_lt_of_le k.isLt hn)
  by_cases hw : w.toNat < n
  · rw [dif_pos hw, Finset.sum_eq_single (⟨w.toNat, hw⟩ : Fin n)]
    · rw [if_pos ((key _).2 rfl)]
    · intro k _ hk
      rw [if_neg]
      intro hwk
      exact hk (Fin.ext ((key k).1 hwk).symm)
    · intro hmem; exact absurd (Finset.mem_univ _) hmem
  · rw [dif_neg hw]
    refine Finset.sum_eq_zero fun k _ => ?_
    rw [if_neg]
    intro hwk
    exact hw (((key k).1 hwk) ▸ k.isLt)

/-- The indicator-weighted sum with the indicator as a factor `1` or `0`. -/
theorem onehot_sum {n : ℕ} (hn : n ≤ 2 ^ 32) (w : BitVec 32) (h : Fin n → EReal) :
    ∑ k : Fin n, (if w = BitVec.ofNat 32 k.val then (1 : EReal) else 0) * h k
      = if hw : w.toNat < n then h ⟨w.toNat, hw⟩ else 0 := by
  rw [← onehot_sum' hn w h]
  refine Finset.sum_congr rfl fun k _ => ?_
  by_cases hk : w = BitVec.ofNat 32 k.val
  · rw [if_pos hk, if_pos hk, one_mul]
  · rw [if_neg hk, if_neg hk, zero_mul]

/-- The factor on the right. -/
theorem onehot_sum_right {n : ℕ} (hn : n ≤ 2 ^ 32) (w : BitVec 32) (h : Fin n → EReal) :
    ∑ k : Fin n, h k * (if w = BitVec.ofNat 32 k.val then (1 : EReal) else 0)
      = if hw : w.toNat < n then h ⟨w.toNat, hw⟩ else 0 := by
  rw [← onehot_sum hn w h]
  exact Finset.sum_congr rfl fun k _ => mul_comm _ _

end Cert.LibTileSums
-- ==== Proof.TileAlgebra.lean ====
import proofs.«153003_j76931454206569_1_alg».proof.Proof.LibTileSums
import proofs.«153003_j76931454206569_1_alg».proof.Proof.Spec
import Mathlib.Algebra.BigOperators.Intervals

/-!
# Eight tiles of sixty-four rows, and an accumulator that is reset every eighth step

The kernel walks each half of the batch in eight steps; step `k` of a walk sees rows `64·k … 64·k + 63` of the
`512` rows. Two facts about that walk, over the extended reals:

* an accumulator that holds `0 + T n` at every step `n` divisible by eight and the previous value plus `T n` at
  every other step holds, at step `n`, the sum of `T` over the steps of the current walk so far
  (`accum_closed`);
* the sum over the eight tiles of the sums over each tile's rows is the sum over all `512` rows (`tiles_total`).

`tileRow n row` is row `row` of the tile that step `n` sees, and `sampOf n r` is sample `r` of the half that
step `n` is in (steps `0 … 7` the first half, `8 … 15` the second), both as total functions of the step number.
-/

namespace Cert.Dice

open scoped BigOperators

/-- Row `row` of the tile of step `n`: `64·(n mod 8) + row`. -/
def tileRow (n : ℕ) (row : Fin 64) : Fin 512 :=
  ⟨64 * (n % 8) + row.val, by have := row.isLt; have := Nat.mod_lt n (show 8 > 0 by norm_num); omega⟩

/-- Sample `r` of the half of step `n`: `32·((n / 8) mod 2) + r`. -/
def sampOf (n : ℕ) (r : Fin 32) : Fin 64 :=
  ⟨32 * ((n / 8) % 2) + r.val, by have := r.isLt; have := Nat.mod_lt (n / 8) (show 2 > 0 by norm_num); omega⟩

theorem tileRow_walk (n k : ℕ) (hk : k < 8) (row : Fin 64) : tileRow (n - n % 8 + k) row = tileRow k row := by
  apply Fin.ext
  show 64 * ((n - n % 8 + k) % 8) + row.val = 64 * (k % 8) + row.val
  omega

theorem sampOf_walk (n k : ℕ) (hk : k < 8) (r : Fin 32) : sampOf (n - n % 8 + k) r = sampOf n r := by
  apply Fin.ext
  show 32 * (((n - n % 8 + k) / 8) % 2) + r.val = 32 * ((n / 8) % 2) + r.val
  omega

/-- The accumulator of a walk in closed form. -/
theorem accum_closed {N : ℕ} (T : ℕ → EReal) (acc : (n : ℕ) → n < N → EReal)
    (hA : ∀ n (hn : n < N), n % 8 = 0 → acc n hn = 0 + T n)
    (hB : ∀ n (hn : n < N), ¬n % 8 = 0 → acc n hn = acc (n - 1) (Nat.lt_of_le_of_lt (Nat.sub_le _ _) hn) + T n) :
    ∀ n (hn : n < N), acc n hn = ∑ k ∈ Finset.range (n % 8 + 1), T (n - n % 8 + k) := by
  intro n
  induction n with
  | zero =>
    intro hn
    rw [hA 0 hn rfl]
    simp
  | succ n ih =>
    intro hn
    by_cases h0 : (n + 1) % 8 = 0
    · rw [hA (n + 1) hn h0, h0]
      simp
    · rw [hB (n + 1) hn h0]
      have hn' : n < N := Nat.lt_of_succ_lt hn
      have hprev : acc (n + 1 - 1) (Nat.lt_of_le_of_lt (Nat.sub_le _ _) hn) = acc n hn' := rfl
      rw [hprev, ih hn']
      have hm : (n + 1) % 8 = n % 8 + 1 := by omega
      have hb : n + 1 - (n % 8 + 1) = n - n % 8 := by omega
      have hl : n - n % 8 + (n % 8 + 1) = n + 1 := by omega
      rw [hm, hb, Finset.sum_range_succ (fun k => T (n - n % 8 + k)) (n % 8 + 1), hl]

/-- The eight tiles' row sums add up to the sum over all rows. -/
theorem tiles_total (f : Fin 512 → EReal) :
    ∑ k ∈ Finset.range 8, ∑ row : Fin 64, f (tileRow k row) = ∑ R : Fin 512, f R := by
  rw [Finset.sum_range (fun k => ∑ row : Fin 64, f (tileRow k row)), ← Cert.LibTileSums.sum_tiles (A := 8) (B := 64) rfl f]
  refine Finset.sum_congr rfl fun k _ => Finset.sum_congr rfl fun row _ => congrArg f (Fin.ext ?_)
  show 64 * (k.val % 8) + row.val = k.val * 64 + row.val
  have := k.isLt
  omega

/-- The double sum of `f` over the rows and columns of the tile of step `n`, at sample `r` of the step's half. -/
noncomputable def tileSum (f : A4.Idx → EReal) (r : Fin 32) (n : ℕ) : EReal :=
  ∑ row : Fin 64, ∑ w : Fin 512, f (at4 (sampOf n r) (tileRow n row) w)

/-- At the last step of a walk the tile sums of the walk add up to the double sum over all rows and columns of
    the sample. -/
theorem walk_total (f : A4.Idx → EReal) (r : Fin 32) (n : ℕ) (h7 : n % 8 = 7) :
    ∑ k ∈ Finset.range (n % 8 + 1), tileSum f r (n - n % 8 + k)
      = ∑ R : Fin 512, ∑ w : Fin 512, f (at4 (sampOf n r) R w) := by
  rw [← tiles_total (fun R => ∑ w : Fin 512, f (at4 (sampOf n r) R w))]
  have e8 : n % 8 + 1 = 8 := by omega
  rw [e8]
  refine Finset.sum_congr rfl fun k hk => ?_
  have hk8 : k < 8 := Finset.mem_range.1 hk
  unfold tileSum
  rw [sampOf_walk n k hk8 r]
  refine Finset.sum_congr rfl fun row _ => ?_
  rw [tileRow_walk n k hk8 row]

end Cert.Dice
-- ==== Proof.KBlocks.lean ====
import proofs.«153003_j76931454206569_1_alg».proof.Proof.Gen.KernelIdeal.Frame
import proofs.«153003_j76931454206569_1_alg».proof.Proof.Spec
import proofs.«153003_j76931454206569_1_alg».proof.Proof.TileAlgebra
import Idealize.ShloMosaic.Lib.Pipeline.Value
import Idealize.ShloMosaic.Lib.ValueIdx

/-!
# The blocks the grid points read, as entries of the whole arrays

Grid point `t = 8·half + tile` stages block `(half, 0, tile, 0)` of the logits and of the mask: samples
`32·half … 32·half + 31`, rows `64·tile … 64·tile + 63`, every column. So entry `(r, 0, row, w)` of the block is
entry `(sampOf t r, 0, tileRow t row, w)` of the array.
-/

noncomputable section

open Idealize.ShloMosaic Idealize.ShloMosaic.TcCoe Idealize.ShloMosaic.ValueIdx Idealize.SL.Sem
open Idealize.ShloMosaic.Pipeline (Dat)

namespace Cert.KernelIdeal.DiceValue

open Cert.KernelIdeal Cert.KernelIdeal.Gen Cert.Dice

variable {F : FTy → Type} [FloatOps F]
variable (m : (ℓ : Loc nD τ sig) → Buf (Elt F) ℓ)

/-- The logits and the mask as the region finds them, and their blocks at a point, at their literal types. -/
abbrev xarr (c : Dev nD) : Vec F S64x1x512x512 .f32 := V m c main_arg1
abbrev garr (c : Dev nD) : Vec F S64x1x512x512 .f32 := V m c main_arg3
abbrev xblk (c : Dev nD) (t : Fin cfg0.N) : Vec F S32x1x64x512 .f32 := iblk m c 0 t
abbrev gblk (c : Dev nD) (t : Fin cfg0.N) : Vec F S32x1x64x512 .f32 := iblk m c 1 t

/-- The two input windows' block indices at point `t`: `(t / 8, 0, t mod 8, 0)`. -/
theorem idx_in : ∀ t : Fin cfg0.N,
    win0_0.index t (0 : Fin 4) = t.val / 8 ∧ win0_0.index t (1 : Fin 4) = 0
    ∧ win0_0.index t (2 : Fin 4) = t.val % 8 ∧ win0_0.index t (3 : Fin 4) = 0
    ∧ win0_1.index t (0 : Fin 4) = t.val / 8 ∧ win0_1.index t (1 : Fin 4) = 0
    ∧ win0_1.index t (2 : Fin 4) = t.val % 8 ∧ win0_1.index t (3 : Fin 4) = 0 :=
  (by decide +kernel : ∀ t : Fin grid0.N, _)

theorem xblk_apply (c : Dev nD) (t : Fin cfg0.N) (r : Fin 32) (row : Fin 64) (w : Fin 512) :
    xblk m c t (ix4 r (0 : Fin 1) row w) = xarr m c (at4 (sampOf t.val r) (tileRow t.val row) w) := by
  have hN : t.val < 16 := lt_of_lt_of_eq t.isLt (show cfg0.N = 16 from N_0)
  obtain ⟨e0, e1, e2, e3, -, -, -, -⟩ := idx_in t
  show ((cfg0.win 0).blk t).view.read (Elt F) (V m c (Pipeline.arrRef spec0 0)) (ix4 r (0 : Fin 1) row w) = _
  rw [View.read_apply]
  show V m c main_arg1 (((cfg0.win 0).blk t).view.emb (ix4 r (0 : Fin 1) row w)) = V m c main_arg1 (at4 (sampOf t.val r) (tileRow t.val row) w)
  congr 1
  funext a
  apply Fin.ext
  match a with
  | ⟨0, _⟩ => show win0_0.index t (0 : Fin 4) * 32 + 1 * r.val = 32 * ((t.val / 8) % 2) + r.val; omega
  | ⟨1, _⟩ => show win0_0.index t (1 : Fin 4) * 1 + 1 * 0 = 0; omega
  | ⟨2, _⟩ => show win0_0.index t (2 : Fin 4) * 64 + 1 * row.val = 64 * (t.val % 8) + row.val; omega
  | ⟨3, _⟩ => show win0_0.index t (3 : Fin 4) * 512 + 1 * w.val = w.val; omega

theorem gblk_apply (c : Dev nD) (t : Fin cfg0.N) (r : Fin 32) (row : Fin 64) (w : Fin 512) :
    gblk m c t (ix4 r (0 : Fin 1) row w) = garr m c (at4 (sampOf t.val r) (tileRow t.val row) w) := by
  have hN : t.val < 16 := lt_of_lt_of_eq t.isLt (show cfg0.N = 16 from N_0)
  obtain ⟨-, -, -, -, e0, e1, e2, e3⟩ := idx_in t
  show ((cfg0.win 1).blk t).view.read (Elt F) (V m c (Pipeline.arrRef spec0 1)) (ix4 r (0 : Fin 1) row w) = _
  rw [View.read_apply]
  show V m c main_arg3 (((cfg0.win 1).blk t).view.emb (ix4 r (0 : Fin 1) row w)) = V m c main_arg3 (at4 (sampOf t.val r) (tileRow t.val row) w)
  congr 1
  funext a
  apply Fin.ext
  match a with
  | ⟨0, _⟩ => show win0_1.index t (0 : Fin 4) * 32 + 1 * r.val = 32 * ((t.val / 8) % 2) + r.val; omega
  | ⟨1, _⟩ => show win0_1.index t (1 : Fin 4) * 1 + 1 * 0 = 0; omega
  | ⟨2, _⟩ => show win0_1.index t (2 : Fin 4) * 64 + 1 * row.val = 64 * (t.val % 8) + row.val; omega
  | ⟨3, _⟩ => show win0_1.index t (3 : Fin 4) * 512 + 1 * w.val = w.val; omega

end Cert.KernelIdeal.DiceValue

end
-- ==== Proof.KAccum.lean ====
import proofs.«153003_j76931454206569_1_alg».proof.Proof.KPieces
import proofs.«153003_j76931454206569_1_alg».proof.Proof.KPayload
import proofs.«153003_j76931454206569_1_alg».proof.Proof.KBlocks

/-!
# The four accumulators, point by point

With `x` the logits and `g` the mask as the region finds them and `σ` the logistic function, the four
accumulators collect the summands `σ(x)·g`, `σ(x)·σ(x)`, `g` and `σ(x)`. A point whose tile number is `0`
leaves `0` plus its tile's sum, every other point what the point before left plus its tile's sum; so after
point `n` each accumulator holds, at sample-in-block `r`, the sum of the tile sums of the points
`n − n mod 8, …, n` (the walk of `n`'s half so far).
-/

noncomputable section

open Idealize.ShloMosaic Idealize.ShloMosaic.TcCoe Idealize.ShloMosaic.ValueIdx Idealize.SL.Sem
open Idealize.ShloMosaic.Pipeline (Dat)
open scoped BigOperators

namespace Cert.KernelIdeal.DiceValue

open Cert.KernelIdeal Cert.KernelIdeal.Gen Cert.Dice

variable (m : (ℓ : Loc nD τ sig) → Buf (Elt Ideal) ℓ)

/-- The four summands, as functions of an index of the big arrays. -/
def f2 (c : Dev nD) : A4.Idx → EReal := fun i => Ideal.logistic (xarr m c i) * garr m c i
def f3 (c : Dev nD) : A4.Idx → EReal := fun i => Ideal.logistic (xarr m c i) * Ideal.logistic (xarr m c i)
def f4 (c : Dev nD) : A4.Idx → EReal := fun i => garr m c i
def f5 (c : Dev nD) : A4.Idx → EReal := fun i => Ideal.logistic (xarr m c i)

/-- The intersection accumulator after point `n`, at sample-in-block `r`: the tile sums of the current walk so far. -/
theorem acc2_closed (c : Dev nD) (r : Fin 32) : ∀ (n : ℕ) (hn : n < cfg0.N),
    (outsAt0 m c n hn).1 (ix2 r (0 : Fin 1))
      = ∑ k ∈ Finset.range (n % 8 + 1), tileSum (f2 m c) r (n - n % 8 + k) := by
  refine accum_closed (tileSum (f2 m c) r) (fun n hn => (outsAt0 m c n hn).1 (ix2 r (0 : Fin 1))) ?_ ?_
  · intro n hn h0
    show (outsAt0 m c n hn).1 (ix2 r (0 : Fin 1)) = _
    rw [outsAt0_A m c (⟨n, hn⟩ : Fin cfg0.N) h0]
    dsimp only
    refine (congrFun (out_A_2 (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) ((hcond0_0 (⟨n, hn⟩ : Fin cfg0.N)).mpr h0) (xblk m c (⟨n, hn⟩ : Fin cfg0.N)) (gblk m c (⟨n, hn⟩ : Fin cfg0.N))) (ix2 r (0 : Fin 1))).trans ?_
    refine (pay8_apply (xblk m c (⟨n, hn⟩ : Fin cfg0.N)) (gblk m c (⟨n, hn⟩ : Fin cfg0.N)) (k0_pay2 (F := Ideal)) r).trans ?_
    rw [pay2_apply]
    refine congrArg (0 + ·) ?_
    unfold tileSum f2
    refine Finset.sum_congr rfl fun row _ => Finset.sum_congr rfl fun w _ => ?_
    rw [xblk_apply, gblk_apply]
  · intro n hn h0
    show (outsAt0 m c n hn).1 (ix2 r (0 : Fin 1)) = _
    rw [outsAt0_B m c (⟨n, hn⟩ : Fin cfg0.N) h0]
    dsimp only
    refine (congrFun (out_B_2 (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) (fun h => h0 ((hcond0_0 (⟨n, hn⟩ : Fin cfg0.N)).mp h)) (xblk m c (⟨n, hn⟩ : Fin cfg0.N)) (gblk m c (⟨n, hn⟩ : Fin cfg0.N)) (outsAt0 m c (n - 1) (Nat.lt_of_le_of_lt (Nat.sub_le _ _) hn)).1 (outsAt0 m c (n - 1) (Nat.lt_of_le_of_lt (Nat.sub_le _ _) hn)).2.1 (outsAt0 m c (n - 1) (Nat.lt_of_le_of_lt (Nat.sub_le _ _) hn)).2.2.1 (outsAt0 m c (n - 1) (Nat.lt_of_le_of_lt (Nat.sub_le _ _) hn)).2.2.2) (ix2 r (0 : Fin 1))).trans ?_
    refine (pay8_apply (xblk m c (⟨n, hn⟩ : Fin cfg0.N)) (gblk m c (⟨n, hn⟩ : Fin cfg0.N)) (outsAt0 m c (n - 1) (Nat.lt_of_le_of_lt (Nat.sub_le _ _) hn)).1 r).trans ?_
    refine congrArg ((outsAt0 m c (n - 1) (Nat.lt_of_le_of_lt (Nat.sub_le _ _) hn)).1 (ix2 r (0 : Fin 1)) + ·) ?_
    unfold tileSum f2
    refine Finset.sum_congr rfl fun row _ => Finset.sum_congr rfl fun w _ => ?_
    rw [xblk_apply, gblk_apply]

/-- The squared-prediction accumulator after point `n`, at sample-in-block `r`: the tile sums of the current walk so far. -/
theorem acc3_closed (c : Dev nD) (r : Fin 32) : ∀ (n : ℕ) (hn : n < cfg0.N),
    (outsAt0 m c n hn).2.1 (ix2 r (0 : Fin 1))
      = ∑ k ∈ Finset.range (n % 8 + 1), tileSum (f3 m c) r (n - n % 8 + k) := by
  refine accum_closed (tileSum (f3 m c) r) (fun n hn => (outsAt0 m c n hn).2.1 (ix2 r (0 : Fin 1))) ?_ ?_
  · intro n hn h0
    show (outsAt0 m c n hn).2.1 (ix2 r (0 : Fin 1)) = _
    rw [outsAt0_A m c (⟨n, hn⟩ : Fin cfg0.N) h0]
    dsimp only
    refine (congrFun (out_A_3 (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) ((hcond0_0 (⟨n, hn⟩ : Fin cfg0.N)).mpr h0) (xblk m c (⟨n, hn⟩ : Fin cfg0.N)) (gblk m c (⟨n, hn⟩ : Fin cfg0.N))) (ix2 r (0 : Fin 1))).trans ?_
    refine (pay9_apply (xblk m c (⟨n, hn⟩ : Fin cfg0.N)) (k0_pay3 (F := Ideal)) r).trans ?_
    rw [pay3_apply]
    refine congrArg (0 + ·) ?_
    unfold tileSum f3
    refine Finset.sum_congr rfl fun row _ => Finset.sum_congr rfl fun w _ => ?_
    rw [xblk_apply]
  · intro n hn h0
    show (outsAt0 m c n hn).2.1 (ix2 r (0 : Fin 1)) = _
    rw [outsAt0_B m c (⟨n, hn⟩ : Fin cfg0.N) h0]
    dsimp only
    refine (congrFun (out_B_3 (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) (fun h => h0 ((hcond0_0 (⟨n, hn⟩ : Fin cfg0.N)).mp h)) (xblk m c (⟨n, hn⟩ : Fin cfg0.N)) (gblk m c (⟨n, hn⟩ : Fin cfg0.N)) (outsAt0 m c (n - 1) (Nat.lt_of_le_of_lt (Nat.sub_le _ _) hn)).1 (outsAt0 m c (n - 1) (Nat.lt_of_le_of_lt (Nat.sub_le _ _) hn)).2.1 (outsAt0 m c (n - 1) (Nat.lt_of_le_of_lt (Nat.sub_le _ _) hn)).2.2.1 (outsAt0 m c (n - 1) (Nat.lt_of_le_of_lt (Nat.sub_le _ _) hn)).2.2.2) (ix2 r (0 : Fin 1))).trans ?_
    refine (pay9_apply (xblk m c (⟨n, hn⟩ : Fin cfg0.N)) (outsAt0 m c (n - 1) (Nat.lt_of_le_of_lt (Nat.sub_le _ _) hn)).2.1 r).trans ?_
    refine congrArg ((outsAt0 m c (n - 1) (Nat.lt_of_le_of_lt (Nat.sub_le _ _) hn)).2.1 (ix2 r (0 : Fin 1)) + ·) ?_
    unfold tileSum f3
    refine Finset.sum_congr rfl fun row _ => Finset.sum_congr rfl fun w _ => ?_
    rw [xblk_apply]

/-- The mask accumulator after point `n`, at sample-in-block `r`: the tile sums of the current walk so far. -/
theorem acc4_closed (c : Dev nD) (r : Fin 32) : ∀ (n : ℕ) (hn : n < cfg0.N),
    (outsAt0 m c n hn).2.2.1 (ix2 r (0 : Fin 1))
      = ∑ k ∈ Finset.range (n % 8 + 1), tileSum (f4 m c) r (n - n % 8 + k) := by
  refine accum_closed (tileSum (f4 m c) r) (fun n hn => (outsAt0 m c n hn).2.2.1 (ix2 r (0 : Fin 1))) ?_ ?_
  · intro n hn h0
    show (outsAt0 m c n hn).2.2.1 (ix2 r (0 : Fin 1)) = _
    rw [outsAt0_A m c (⟨n, hn⟩ : Fin cfg0.N) h0]
    dsimp only
    refine (congrFun (out_A_4 (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) ((hcond0_0 (⟨n, hn⟩ : Fin cfg0.N)).mpr h0) (xblk m c (⟨n, hn⟩ : Fin cfg0.N)) (gblk m c (⟨n, hn⟩ : Fin cfg0.N))) (ix2 r (0 : Fin 1))).trans ?_
    refine (pay10_apply (gblk m c (⟨n, hn⟩ : Fin cfg0.N)) (k0_pay4 (F := Ideal)) r).trans ?_
    rw [pay4_apply]
    refine congrArg (0 + ·) ?_
    unfold tileSum f4
    refine Finset.sum_congr rfl fun row _ => Finset.sum_congr rfl fun w _ => ?_
    rw [gblk_apply]
  · intro n hn h0
    show (outsAt0 m c n hn).2.2.1 (ix2 r (0 : Fin 1)) = _
    rw [outsAt0_B m c (⟨n, hn⟩ : Fin cfg0.N) h0]
    dsimp only
    refine (congrFun (out_B_4 (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) (fun h => h0 ((hcond0_0 (⟨n, hn⟩ : Fin cfg0.N)).mp h)) (xblk m c (⟨n, hn⟩ : Fin cfg0.N)) (gblk m c (⟨n, hn⟩ : Fin cfg0.N)) (outsAt0 m c (n - 1) (Nat.lt_of_le_of_lt (Nat.sub_le _ _) hn)).1 (outsAt0 m c (n - 1) (Nat.lt_of_le_of_lt (Nat.sub_le _ _) hn)).2.1 (outsAt0 m c (n - 1) (Nat.lt_of_le_of_lt (Nat.sub_le _ _) hn)).2.2.1 (outsAt0 m c (n - 1) (Nat.lt_of_le_of_lt (Nat.sub_le _ _) hn)).2.2.2) (ix2 r (0 : Fin 1))).trans ?_
    refine (pay10_apply (gblk m c (⟨n, hn⟩ : Fin cfg0.N)) (outsAt0 m c (n - 1) (Nat.lt_of_le_of_lt (Nat.sub_le _ _) hn)).2.2.1 r).trans ?_
    refine congrArg ((outsAt0 m c (n - 1) (Nat.lt_of_le_of_lt (Nat.sub_le _ _) hn)).2.2.1 (ix2 r (0 : Fin 1)) + ·) ?_
    unfold tileSum f4
    refine Finset.sum_congr rfl fun row _ => Finset.sum_congr rfl fun w _ => ?_
    rw [gblk_apply]

/-- The prediction accumulator after point `n`, at sample-in-block `r`: the tile sums of the current walk so far. -/
theorem acc5_closed (c : Dev nD) (r : Fin 32) : ∀ (n : ℕ) (hn : n < cfg0.N),
    (outsAt0 m c n hn).2.2.2 (ix2 r (0 : Fin 1))
      = ∑ k ∈ Finset.range (n % 8 + 1), tileSum (f5 m c) r (n - n % 8 + k) := by
  refine accum_closed (tileSum (f5 m c) r) (fun n hn => (outsAt0 m c n hn).2.2.2 (ix2 r (0 : Fin 1))) ?_ ?_
  · intro n hn h0
    show (outsAt0 m c n hn).2.2.2 (ix2 r (0 : Fin 1)) = _
    rw [outsAt0_A m c (⟨n, hn⟩ : Fin cfg0.N) h0]
    dsimp only
    refine (congrFun (out_A_5 (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) ((hcond0_0 (⟨n, hn⟩ : Fin cfg0.N)).mpr h0) (xblk m c (⟨n, hn⟩ : Fin cfg0.N)) (gblk m c (⟨n, hn⟩ : Fin cfg0.N))) (ix2 r (0 : Fin 1))).trans ?_
    refine (pay1_apply (xblk m c (⟨n, hn⟩ : Fin cfg0.N)) (k0_pay5 (F := Ideal)) r).trans ?_
    rw [pay5_apply]
    refine congrArg (0 + ·) ?_
    unfold tileSum f5
    refine Finset.sum_congr rfl fun row _ => Finset.sum_congr rfl fun w _ => ?_
    rw [xblk_apply]
  · intro n hn h0
    show (outsAt0 m c n hn).2.2.2 (ix2 r (0 : Fin 1)) = _
    rw [outsAt0_B m c (⟨n, hn⟩ : Fin cfg0.N) h0]
    dsimp only
    refine (congrFun (out_B_5 (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) (fun h => h0 ((hcond0_0 (⟨n, hn⟩ : Fin cfg0.N)).mp h)) (xblk m c (⟨n, hn⟩ : Fin cfg0.N)) (gblk m c (⟨n, hn⟩ : Fin cfg0.N)) (outsAt0 m c (n - 1) (Nat.lt_of_le_of_lt (Nat.sub_le _ _) hn)).1 (outsAt0 m c (n - 1) (Nat.lt_of_le_of_lt (Nat.sub_le _ _) hn)).2.1 (outsAt0 m c (n - 1) (Nat.lt_of_le_of_lt (Nat.sub_le _ _) hn)).2.2.1 (outsAt0 m c (n - 1) (Nat.lt_of_le_of_lt (Nat.sub_le _ _) hn)).2.2.2) (ix2 r (0 : Fin 1))).trans ?_
    refine (pay1_apply (xblk m c (⟨n, hn⟩ : Fin cfg0.N)) (outsAt0 m c (n - 1) (Nat.lt_of_le_of_lt (Nat.sub_le _ _) hn)).2.2.2 r).trans ?_
    refine congrArg ((outsAt0 m c (n - 1) (Nat.lt_of_le_of_lt (Nat.sub_le _ _) hn)).2.2.2 (ix2 r (0 : Fin 1)) + ·) ?_
    unfold tileSum f5
    refine Finset.sum_congr rfl fun row _ => Finset.sum_congr rfl fun w _ => ?_
    rw [xblk_apply]

end Cert.KernelIdeal.DiceValue

end
-- ==== Proof.KFinal.lean ====
import proofs.«153003_j76931454206569_1_alg».proof.Proof.KAccum
import Idealize.ShloMosaic.Lib.Pipeline.Value
import Idealize.ShloMosaic.Lib.ValueIdx

/-!
# The four result arrays after the region

Each `[64, 1]` result array is written back once per half of the batch, after the half's last tile, with the
half's `[32, 1]` accumulator; the two write-backs cover the array. At that point the accumulator holds, at
sample-in-block `r`, the whole walk's tile sums, which add up to the double sum over the sample's `512 × 512`
positions. So entry `(b, 0)` of each array ends at the specification's sum for sample `b`.
-/

noncomputable section

open Idealize.ShloMosaic Idealize.ShloMosaic.TcCoe Idealize.ShloMosaic.ValueIdx Idealize.SL.Sem
open Idealize.ShloMosaic.Pipeline (Dat)
open scoped BigOperators

namespace Cert.KernelIdeal.DiceValue

open Cert.KernelIdeal Cert.KernelIdeal.Gen Cert.Dice

variable (m : (ℓ : Loc nD τ sig) → Buf (Elt Ideal) ℓ)

/-- What the four result arrays end holding: the specification's four sums of the logits and the mask as the
    region finds them, sample by sample. -/
def G2 (c : Dev nD) : S64x1.Idx → Elt Ideal .f32 := fun i => sumPG (xarr m c) (garr m c) (i 0)
def G3 (c : Dev nD) : S64x1.Idx → Elt Ideal .f32 := fun i => sumPP (xarr m c) (i 0)
def G4 (c : Dev nD) : S64x1.Idx → Elt Ideal .f32 := fun i => sumG (garr m c) (i 0)
def G5 (c : Dev nD) : S64x1.Idx → Elt Ideal .f32 := fun i => sumP (xarr m c) (i 0)

/-- The four result windows' block indices over the grid: point `t` is at block `(t / 8, 0)` of each, the half of
    the batch it is in. -/
theorem idx_out : ∀ t : Fin cfg0.N,
    win0_2.index t (0 : Fin 2) = t.val / 8 ∧ win0_2.index t (1 : Fin 2) = 0
    ∧ win0_3.index t (0 : Fin 2) = t.val / 8 ∧ win0_3.index t (1 : Fin 2) = 0
    ∧ win0_4.index t (0 : Fin 2) = t.val / 8 ∧ win0_4.index t (1 : Fin 2) = 0
    ∧ win0_5.index t (0 : Fin 2) = t.val / 8 ∧ win0_5.index t (1 : Fin 2) = 0 :=
  (by decide +kernel : ∀ t : Fin grid0.N, _)

/-- The last point of the half that sample `i 0` is in: `8·(i 0 / 32) + 7`. -/
def lastOf (i : S64x1.Idx) : Fin cfg0.N :=
  ⟨8 * ((i 0).val / 32) + 7, by
    have hi : (i 0).val < 64 := (i 0).isLt
    rw [show cfg0.N = 16 from N_0]; omega⟩

/-- What a flushing point writes back of the intersection accumulator is its block of `G2`: at the last point of a walk
    the accumulator holds, at sample-in-block `r`, the sample's whole double sum. -/
theorem flushed2 (c : Dev nD) (t : Fin cfg0.N) (hf : (cfg0.win 2).flush t = true) :
    (dats m 0 c).flushed 2 t = ((cfg0.win 2).blk t).view.read (Elt Ideal) (G2 m c) := by
  have hN : t.val < 16 := lt_of_lt_of_eq t.isLt (show cfg0.N = 16 from N_0)
  have h7 : t.val % 8 = 7 := (flush0_2 t).mp hf
  obtain ⟨e0, e1, -, -, -, -, -, -⟩ := idx_out t
  show (cfg0.win 2).cut (grid0.coords t) ((dats m 0 c).after 2 t) = _
  rw [after0_2]
  funext j
  obtain ⟨r, z, rfl⟩ : ∃ (r : Fin 32) (z : Fin 1), j = ix2 r z := ⟨j 0, j 1, eq_ix2 j⟩
  obtain rfl : z = 0 := Subsingleton.elim _ _
  show (outsAt0 m c t.val t.isLt).1 (ix2 r (0 : Fin 1)) = G2 m c (((cfg0.win 2).blk t).view.emb (ix2 r (0 : Fin 1)))
  rw [acc2_closed m c r t.val t.isLt, walk_total (f2 m c) r t.val h7]
  have hemb : ((cfg0.win 2).blk t).view.emb (ix2 r (0 : Fin 1)) = ix2 (sampOf t.val r) (0 : Fin 1) := by
    funext a; apply Fin.ext
    match a with
    | ⟨0, _⟩ => show win0_2.index t (0 : Fin 2) * 32 + 1 * r.val = 32 * ((t.val / 8) % 2) + r.val; omega
    | ⟨1, _⟩ => show win0_2.index t (1 : Fin 2) * 1 + 1 * 0 = 0; omega
  rw [hemb]
  rfl

/-- Entry `i` of the array lies in the block of the last point of its sample's half, which writes back. -/
theorem cover2 (i : S64x1.Idx) :
    ∃ t : Fin cfg0.N, (cfg0.win 2).flush t = true ∧ i ∈ ((cfg0.win 2).blk t).view.set := by
  have hi0 : (i 0).val < 64 := (i 0).isLt
  have hi1 : (i 1).val < 1 := (i 1).isLt
  have ht : (lastOf i).val = 8 * ((i 0).val / 32) + 7 := rfl
  obtain ⟨e0, e1, -, -, -, -, -, -⟩ := idx_out (lastOf i)
  refine ⟨lastOf i, (flush0_2 (lastOf i)).mpr (by rw [ht]; omega), ?_⟩
  show i ∈ ((View.whole main_v14_0).slice (win0_2.rect (lastOf i))).set
  rw [View.set_slice_whole, Rect.mem_set_unit]
  intro a
  match a with
  | ⟨0, _⟩ => show win0_2.index (lastOf i) (0 : Fin 2) * 32 ≤ (i 0).val ∧ (i 0).val < win0_2.index (lastOf i) (0 : Fin 2) * 32 + 32; omega
  | ⟨1, _⟩ => show win0_2.index (lastOf i) (1 : Fin 2) * 1 ≤ (i 1).val ∧ (i 1).val < win0_2.index (lastOf i) (1 : Fin 2) * 1 + 1; omega

theorem final2 (c : Dev nD) : (dats m 0 c).arrAt 2 cfg0.N = G2 m c :=
  (dats m 0 c).arrAt_eq_of_cover 2 (G2 m c) (flushed2 m c) cover2

/-- What a flushing point writes back of the squared-prediction accumulator is its block of `G3`: at the last point of a walk
    the accumulator holds, at sample-in-block `r`, the sample's whole double sum. -/
theorem flushed3 (c : Dev nD) (t : Fin cfg0.N) (hf : (cfg0.win 3).flush t = true) :
    (dats m 0 c).flushed 3 t = ((cfg0.win 3).blk t).view.read (Elt Ideal) (G3 m c) := by
  have hN : t.val < 16 := lt_of_lt_of_eq t.isLt (show cfg0.N = 16 from N_0)
  have h7 : t.val % 8 = 7 := (flush0_3 t).mp hf
  obtain ⟨-, -, e0, e1, -, -, -, -⟩ := idx_out t
  show (cfg0.win 3).cut (grid0.coords t) ((dats m 0 c).after 3 t) = _
  rw [after0_3]
  funext j
  obtain ⟨r, z, rfl⟩ : ∃ (r : Fin 32) (z : Fin 1), j = ix2 r z := ⟨j 0, j 1, eq_ix2 j⟩
  obtain rfl : z = 0 := Subsingleton.elim _ _
  show (outsAt0 m c t.val t.isLt).2.1 (ix2 r (0 : Fin 1)) = G3 m c (((cfg0.win 3).blk t).view.emb (ix2 r (0 : Fin 1)))
  rw [acc3_closed m c r t.val t.isLt, walk_total (f3 m c) r t.val h7]
  have hemb : ((cfg0.win 3).blk t).view.emb (ix2 r (0 : Fin 1)) = ix2 (sampOf t.val r) (0 : Fin 1) := by
    funext a; apply Fin.ext
    match a with
    | ⟨0, _⟩ => show win0_3.index t (0 : Fin 2) * 32 + 1 * r.val = 32 * ((t.val / 8) % 2) + r.val; omega
    | ⟨1, _⟩ => show win0_3.index t (1 : Fin 2) * 1 + 1 * 0 = 0; omega
  rw [hemb]
  rfl

/-- Entry `i` of the array lies in the block of the last point of its sample's half, which writes back. -/
theorem cover3 (i : S64x1.Idx) :
    ∃ t : Fin cfg0.N, (cfg0.win 3).flush t = true ∧ i ∈ ((cfg0.win 3).blk t).view.set := by
  have hi0 : (i 0).val < 64 := (i 0).isLt
  have hi1 : (i 1).val < 1 := (i 1).isLt
  have ht : (lastOf i).val = 8 * ((i 0).val / 32) + 7 := rfl
  obtain ⟨-, -, e0, e1, -, -, -, -⟩ := idx_out (lastOf i)
  refine ⟨lastOf i, (flush0_3 (lastOf i)).mpr (by rw [ht]; omega), ?_⟩
  show i ∈ ((View.whole main_v14_1).slice (win0_3.rect (lastOf i))).set
  rw [View.set_slice_whole, Rect.mem_set_unit]
  intro a
  match a with
  | ⟨0, _⟩ => show win0_3.index (lastOf i) (0 : Fin 2) * 32 ≤ (i 0).val ∧ (i 0).val < win0_3.index (lastOf i) (0 : Fin 2) * 32 + 32; omega
  | ⟨1, _⟩ => show win0_3.index (lastOf i) (1 : Fin 2) * 1 ≤ (i 1).val ∧ (i 1).val < win0_3.index (lastOf i) (1 : Fin 2) * 1 + 1; omega

theorem final3 (c : Dev nD) : (dats m 0 c).arrAt 3 cfg0.N = G3 m c :=
  (dats m 0 c).arrAt_eq_of_cover 3 (G3 m c) (flushed3 m c) cover3

/-- What a flushing point writes back of the mask accumulator is its block of `G4`: at the last point of a walk
    the accumulator holds, at sample-in-block `r`, the sample's whole double sum. -/
theorem flushed4 (c : Dev nD) (t : Fin cfg0.N) (hf : (cfg0.win 4).flush t = true) :
    (dats m 0 c).flushed 4 t = ((cfg0.win 4).blk t).view.read (Elt Ideal) (G4 m c) := by
  have hN : t.val < 16 := lt_of_lt_of_eq t.isLt (show cfg0.N = 16 from N_0)
  have h7 : t.val % 8 = 7 := (flush0_4 t).mp hf
  obtain ⟨-, -, -, -, e0, e1, -, -⟩ := idx_out t
  show (cfg0.win 4).cut (grid0.coords t) ((dats m 0 c).after 4 t) = _
  rw [after0_4]
  funext j
  obtain ⟨r, z, rfl⟩ : ∃ (r : Fin 32) (z : Fin 1), j = ix2 r z := ⟨j 0, j 1, eq_ix2 j⟩
  obtain rfl : z = 0 := Subsingleton.elim _ _
  show (outsAt0 m c t.val t.isLt).2.2.1 (ix2 r (0 : Fin 1)) = G4 m c (((cfg0.win 4).blk t).view.emb (ix2 r (0 : Fin 1)))
  rw [acc4_closed m c r t.val t.isLt, walk_total (f4 m c) r t.val h7]
  have hemb : ((cfg0.win 4).blk t).view.emb (ix2 r (0 : Fin 1)) = ix2 (sampOf t.val r) (0 : Fin 1) := by
    funext a; apply Fin.ext
    match a with
    | ⟨0, _⟩ => show win0_4.index t (0 : Fin 2) * 32 + 1 * r.val = 32 * ((t.val / 8) % 2) + r.val; omega
    | ⟨1, _⟩ => show win0_4.index t (1 : Fin 2) * 1 + 1 * 0 = 0; omega
  rw [hemb]
  rfl

/-- Entry `i` of the array lies in the block of the last point of its sample's half, which writes back. -/
theorem cover4 (i : S64x1.Idx) :
    ∃ t : Fin cfg0.N, (cfg0.win 4).flush t = true ∧ i ∈ ((cfg0.win 4).blk t).view.set := by
  have hi0 : (i 0).val < 64 := (i 0).isLt
  have hi1 : (i 1).val < 1 := (i 1).isLt
  have ht : (lastOf i).val = 8 * ((i 0).val / 32) + 7 := rfl
  obtain ⟨-, -, -, -, e0, e1, -, -⟩ := idx_out (lastOf i)
  refine ⟨lastOf i, (flush0_4 (lastOf i)).mpr (by rw [ht]; omega), ?_⟩
  show i ∈ ((View.whole main_v14_2).slice (win0_4.rect (lastOf i))).set
  rw [View.set_slice_whole, Rect.mem_set_unit]
  intro a
  match a with
  | ⟨0, _⟩ => show win0_4.index (lastOf i) (0 : Fin 2) * 32 ≤ (i 0).val ∧ (i 0).val < win0_4.index (lastOf i) (0 : Fin 2) * 32 + 32; omega
  | ⟨1, _⟩ => show win0_4.index (lastOf i) (1 : Fin 2) * 1 ≤ (i 1).val ∧ (i 1).val < win0_4.index (lastOf i) (1 : Fin 2) * 1 + 1; omega

theorem final4 (c : Dev nD) : (dats m 0 c).arrAt 4 cfg0.N = G4 m c :=
  (dats m 0 c).arrAt_eq_of_cover 4 (G4 m c) (flushed4 m c) cover4

/-- What a flushing point writes back of the prediction accumulator is its block of `G5`: at the last point of a walk
    the accumulator holds, at sample-in-block `r`, the sample's whole double sum. -/
theorem flushed5 (c : Dev nD) (t : Fin cfg0.N) (hf : (cfg0.win 5).flush t = true) :
    (dats m 0 c).flushed 5 t = ((cfg0.win 5).blk t).view.read (Elt Ideal) (G5 m c) := by
  have hN : t.val < 16 := lt_of_lt_of_eq t.isLt (show cfg0.N = 16 from N_0)
  have h7 : t.val % 8 = 7 := (flush0_5 t).mp hf
  obtain ⟨-, -, -, -, -, -, e0, e1⟩ := idx_out t
  show (cfg0.win 5).cut (grid0.coords t) ((dats m 0 c).after 5 t) = _
  rw [after0_5]
  funext j
  obtain ⟨r, z, rfl⟩ : ∃ (r : Fin 32) (z : Fin 1), j = ix2 r z := ⟨j 0, j 1, eq_ix2 j⟩
  obtain rfl : z = 0 := Subsingleton.elim _ _
  show (outsAt0 m c t.val t.isLt).2.2.2 (ix2 r (0 : Fin 1)) = G5 m c (((cfg0.win 5).blk t).view.emb (ix2 r (0 : Fin 1)))
  rw [acc5_closed m c r t.val t.isLt, walk_total (f5 m c) r t.val h7]
  have hemb : ((cfg0.win 5).blk t).view.emb (ix2 r (0 : Fin 1)) = ix2 (sampOf t.val r) (0 : Fin 1) := by
    funext a; apply Fin.ext
    match a with
    | ⟨0, _⟩ => show win0_5.index t (0 : Fin 2) * 32 + 1 * r.val = 32 * ((t.val / 8) % 2) + r.val; omega
    | ⟨1, _⟩ => show win0_5.index t (1 : Fin 2) * 1 + 1 * 0 = 0; omega
  rw [hemb]
  rfl

/-- Entry `i` of the array lies in the block of the last point of its sample's half, which writes back. -/
theorem cover5 (i : S64x1.Idx) :
    ∃ t : Fin cfg0.N, (cfg0.win 5).flush t = true ∧ i ∈ ((cfg0.win 5).blk t).view.set := by
  have hi0 : (i 0).val < 64 := (i 0).isLt
  have hi1 : (i 1).val < 1 := (i 1).isLt
  have ht : (lastOf i).val = 8 * ((i 0).val / 32) + 7 := rfl
  obtain ⟨-, -, -, -, -, -, e0, e1⟩ := idx_out (lastOf i)
  refine ⟨lastOf i, (flush0_5 (lastOf i)).mpr (by rw [ht]; omega), ?_⟩
  show i ∈ ((View.whole main_v14_3).slice (win0_5.rect (lastOf i))).set
  rw [View.set_slice_whole, Rect.mem_set_unit]
  intro a
  match a with
  | ⟨0, _⟩ => show win0_5.index (lastOf i) (0 : Fin 2) * 32 ≤ (i 0).val ∧ (i 0).val < win0_5.index (lastOf i) (0 : Fin 2) * 32 + 32; omega
  | ⟨1, _⟩ => show win0_5.index (lastOf i) (1 : Fin 2) * 1 ≤ (i 1).val ∧ (i 1).val < win0_5.index (lastOf i) (1 : Fin 2) * 1 + 1; omega

theorem final5 (c : Dev nD) : (dats m 0 c).arrAt 5 cfg0.N = G5 m c :=
  (dats m 0 c).arrAt_eq_of_cover 5 (G5 m c) (flushed5 m c) cover5

/-- A `[64, 1]` column reshaped to `[64]`, read at `b`: the column's entry `(b, 0)`. -/
theorem reshape_col (v : S64x1.Idx → Elt Ideal .f32) (h : S64x1.ShapeCasts S64) :
    shapeCast S64 v h = fun b : S64.Idx => v (ix2 (b 0) (0 : Fin 1)) := by
  funext b
  refine shapeCast_apply v h b (ix2 (b 0) (0 : Fin 1)) ?_
  rw [Shape.rowMajor_val_two, Shape.rowMajor_val_one]
  show (b 0).val * 1 + 0 = (b 0).val
  omega

end Cert.KernelIdeal.DiceValue

end
-- ==== Proof.KTail.lean ====
import proofs.«153003_j76931454206569_1_alg».proof.Proof.Gen.KernelIdeal.Frame
import proofs.«153003_j76931454206569_1_alg».proof.Proof.Spec
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.DiceTail

open Cert.KernelIdeal Cert.KernelIdeal.Gen Cert.Dice

variable {F : FTy → Type} [FloatOps F]
variable (m : (ℓ : Loc nD τ sig) → Buf (Elt F) ℓ)

/-- What the region leaves in result array `w` (`w = 2, 3, 4, 5`: the four `[64, 1]` accumulators). -/
abbrev outArr (c : Dev nD) (w : Fin cfg0.W) := (dats m 0 c).arrAt w cfg0.N

/-- The classification loss is computed before the region and no later line touches it: after the whole program
    its buffer holds `clsLoss` of the class probabilities and the labels as launched. -/
theorem tail_cls (c : Dev nD) :
    Pipeline.afterTail₀ cfgs (dats m) 0 (V0 m) [hostOps1, hostOps1_1, hostOps1_2, hostOps1_3] c main_v13
      = clsLoss (F := F) bcast_S_S64 reducesTo_S64_S_d0 h_S_ (m ((c : Thread nD τ).loc main_arg0)) (m ((c : Thread nD τ).loc main_arg2)) := by
  unfold Pipeline.afterTail₀
  -- No line after the region writes this buffer, and it is none of the pipeline's arrays: at the end
  -- it still holds what the lines before the region left in it.
  rw [StableHlo.after_of_forall_not_mem (b := Proc.devRef .tc main_v13) _ _ (List.forall_iff_forall_mem.mp (by
      simp only [hostOps1, hostOps1_1, hostOps1_2, hostOps1_3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_v13 (by exact (by decide : ∀ w, Pipeline.arrRef spec0 w ≠ main_v13))]
  -- Those lines, composed from the two arguments as launched, are `clsLoss`.
  show StableHlo.after (List.flatten [hostOps0, hostOps0_1, hostOps0_2]) (fun b => m (c, b)) (Proc.devRef .tc main_v13) = _
  simp only [hostOps0, hostOps0_1, hostOps0_2, List.flatten_cons, List.flatten_nil, List.append_nil, List.cons_append, List.nil_append]
  after_results_simp
  rfl

/-- The lines after the region reshape the four `[64, 1]` result arrays to `[64]` and compute the segmentation
    loss from them, the class probabilities and the labels (converted to floats before the region). -/
theorem tail_seg (c : Dev nD) :
    Pipeline.afterTail₀ cfgs (dats m) 0 (V0 m) [hostOps1, hostOps1_1, hostOps1_2, hostOps1_3] c main_v44
      = segLoss (F := F) bcast_S_S64 reducesTo_S64_S_d0 h_S_ (m ((c : Thread nD τ).loc main_arg0)) (m ((c : Thread nD τ).loc main_arg2))
          (shapeCast S64 (outArr m c 2) shapeCasts_S64x1_S64) (shapeCast S64 (outArr m c 3) shapeCasts_S64x1_S64)
          (shapeCast S64 (outArr m c 4) shapeCasts_S64x1_S64) (shapeCast S64 (outArr m c 5) shapeCasts_S64x1_S64) := by
  unfold Pipeline.afterTail₀
  -- Compose the lines after the region: the result is their term over the region's exit memory.
  simp only [hostOps1, hostOps1_1, hostOps1_2, hostOps1_3, List.flatten_cons, List.flatten_nil, List.append_nil, List.cons_append, List.nil_append]
  after_results_simp
  -- That term reads the exit memory at six buffers. Four are the pipeline's result arrays, which hold
  -- what the region left in them.
  have e2 : Pipeline.withArrays (cfgs 0).spec c (V0 m c) (fun w => (dats m 0 c).arrAt w (cfgs 0).N) (Proc.devRef .tc main_v14_0) = outArr m c 2 :=
    Pipeline.withArrays_arr spec0 launch0.win.arr_inj c _ _ 2
  have e3 : Pipeline.withArrays (cfgs 0).spec c (V0 m c) (fun w => (dats m 0 c).arrAt w (cfgs 0).N) (Proc.devRef .tc main_v14_1) = outArr m c 3 :=
    Pipeline.withArrays_arr spec0 launch0.win.arr_inj c _ _ 3
  have e4 : Pipeline.withArrays (cfgs 0).spec c (V0 m c) (fun w => (dats m 0 c).arrAt w (cfgs 0).N) (Proc.devRef .tc main_v14_2) = outArr m c 4 :=
    Pipeline.withArrays_arr spec0 launch0.win.arr_inj c _ _ 4
  have e5 : Pipeline.withArrays (cfgs 0).spec c (V0 m c) (fun w => (dats m 0 c).arrAt w (cfgs 0).N) (Proc.devRef .tc main_v14_3) = outArr m c 5 :=
    Pipeline.withArrays_arr spec0 launch0.win.arr_inj c _ _ 5
  -- The class probabilities are no array of the pipeline and no line writes them: as launched.
  have eA : Pipeline.withArrays (cfgs 0).spec c (V0 m c) (fun w => (dats m 0 c).arrAt w (cfgs 0).N) (Proc.devRef .tc main_arg0) = m ((c : Thread nD τ).loc main_arg0) :=
    (Pipeline.withArrays_of_ne _ c (V0 m c) _ main_arg0 (by exact (by decide : ∀ w, Pipeline.arrRef spec0 w ≠ main_arg0))).trans
      (V_main_arg0 m c)
  -- The labels' float conversion is no array of the pipeline either; the first line before the
  -- region computed it from the labels as launched.
  have eL : Pipeline.withArrays (cfgs 0).spec c (V0 m c) (fun w => (dats m 0 c).arrAt w (cfgs 0).N) (Proc.devRef .tc main_v0) = sitofp (F := F) .f32 (m ((c : Thread nD τ).loc main_arg2)) := by
    rw [Pipeline.withArrays_of_ne _ c (V0 m c) _ main_v0 (by exact (by decide : ∀ w, Pipeline.arrRef spec0 w ≠ main_v0))]
    show StableHlo.after (List.flatten [hostOps0, hostOps0_1, hostOps0_2]) (fun b => m (c, b)) (Proc.devRef .tc main_v0) = _
    simp only [hostOps0, hostOps0_1, hostOps0_2, List.flatten_cons, List.flatten_nil, List.append_nil, List.cons_append, List.nil_append]
    after_results_simp
  -- With the six reads replaced the term is `segLoss`, each result array reshaped to one axis.
  simp only [e2, e3, e4, e5, eA, eL]
  rfl

end Cert.KernelIdeal.DiceTail

end
-- ==== Proof.KRun.lean ====
import proofs.«153003_j76931454206569_1_alg».proof.Proof.KFinal
import proofs.«153003_j76931454206569_1_alg».proof.Proof.KTail

/-!
# The kernel program's run, read as values

The generated frame run ends with each of the four result arrays at what the write-backs leave and every other
buffer as the host lines after the region leave it. Read with the result arrays' closed forms, the two result
buffers hold the classification loss of the arguments and the segmentation loss of the arguments and of the
specification's sums `Σ σ(x)·g`, `Σ σ(x)·σ(x)`, `Σ g`, `Σ σ(x)`; the arguments are unchanged.
-/

noncomputable section

open Idealize.ShloMosaic Idealize.ShloMosaic.TcCoe Idealize.ShloMosaic.ValueIdx Idealize.SL.Sem
open Idealize.ShloMosaic.Pipeline (Dat)

namespace Cert.KernelIdeal.DiceValue

open Cert.KernelIdeal Cert.KernelIdeal.Gen Cert.Dice Cert.KernelIdeal.DiceTail

variable (m : (ℓ : Loc nD τ sig) → Buf (Elt Ideal) ℓ) (ρ : Dev nD → PrngReg)

/-- The region finds the logits and the mask as launched. -/
theorem xarr_eq (c : Dev nD) : xarr m c = m ((c.tc : Thread nD τ).loc main_arg1) := V_main_arg1 m c
theorem garr_eq (c : Dev nD) : garr m c = m ((c.tc : Thread nD τ).loc main_arg3) := V_main_arg3 m c

/-- The four result arrays, reshaped to `[64]`, are the four sums sample by sample. -/
theorem col2 (c : Dev nD) : shapeCast S64 (outArr m c 2) shapeCasts_S64x1_S64
    = fun b : S64.Idx => sumPG (m ((c.tc : Thread nD τ).loc main_arg1)) (m ((c.tc : Thread nD τ).loc main_arg3)) (b 0) := by
  show shapeCast S64 ((dats m 0 c).arrAt 2 cfg0.N) shapeCasts_S64x1_S64 = _
  rw [final2, reshape_col]
  funext b
  show sumPG (xarr m c) (garr m c) (b 0) = _
  rw [xarr_eq, garr_eq]

theorem col3 (c : Dev nD) : shapeCast S64 (outArr m c 3) shapeCasts_S64x1_S64
    = fun b : S64.Idx => sumPP (m ((c.tc : Thread nD τ).loc main_arg1)) (b 0) := by
  show shapeCast S64 ((dats m 0 c).arrAt 3 cfg0.N) shapeCasts_S64x1_S64 = _
  rw [final3, reshape_col]
  funext b
  show sumPP (xarr m c) (b 0) = _
  rw [xarr_eq]

theorem col4 (c : Dev nD) : shapeCast S64 (outArr m c 4) shapeCasts_S64x1_S64
    = fun b : S64.Idx => sumG (m ((c.tc : Thread nD τ).loc main_arg3)) (b 0) := by
  show shapeCast S64 ((dats m 0 c).arrAt 4 cfg0.N) shapeCasts_S64x1_S64 = _
  rw [final4, reshape_col]
  funext b
  show sumG (garr m c) (b 0) = _
  rw [garr_eq]

theorem col5 (c : Dev nD) : shapeCast S64 (outArr m c 5) shapeCasts_S64x1_S64
    = fun b : S64.Idx => sumP (m ((c.tc : Thread nD τ).loc main_arg1)) (b 0) := by
  show shapeCast S64 ((dats m 0 c).arrAt 5 cfg0.N) shapeCasts_S64x1_S64 = _
  rw [final5, reshape_col]
  funext b
  show sumP (xarr m c) (b 0) = _
  rw [xarr_eq]

/-- The kernel program's run at the extended reals. -/
theorem run_values : θ_run defs (onTc (τ := τ) (main (F := Ideal))) ⟨m, fun _ => 0, ρ⟩ fun r => ∀ c : Dev nD,
      r.2.mem ((c.tc : Thread nD τ).loc main_v13)
        = clsLoss (F := Ideal) bcast_S_S64 reducesTo_S64_S_d0 h_S_ (m ((c.tc : Thread nD τ).loc main_arg0)) (m ((c.tc : Thread nD τ).loc main_arg2))
      ∧ r.2.mem ((c.tc : Thread nD τ).loc main_v44)
        = segLoss (F := Ideal) bcast_S_S64 reducesTo_S64_S_d0 h_S_ (m ((c.tc : Thread nD τ).loc main_arg0)) (m ((c.tc : Thread nD τ).loc main_arg2))
            (fun b => sumPG (m ((c.tc : Thread nD τ).loc main_arg1)) (m ((c.tc : Thread nD τ).loc main_arg3)) (b 0))
            (fun b => sumPP (m ((c.tc : Thread nD τ).loc main_arg1)) (b 0))
            (fun b => sumG (m ((c.tc : Thread nD τ).loc main_arg3)) (b 0))
            (fun b => sumP (m ((c.tc : Thread nD τ).loc main_arg1)) (b 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
      have hv13 := ((h c).2 main_v13 (Pipeline.mem_restRefs_of main_v13 (by decide) (by decide))).trans (tail_cls m c)
      have hv44 := ((h c).2 main_v44 (Pipeline.mem_restRefs_of main_v44 (by decide) (by decide))).trans (tail_seg m c)
      rw [col2 m c, col3 m c, col4 m c, col5 m c] at hv44
      exact ⟨hv13, hv44,
        ((h c).2 main_arg0 (Pipeline.mem_restRefs_of main_arg0 (by decide) (by decide))).trans (W_main_arg0 m (dats m) c),
        ((h c).1 0).trans (((dats m 0 c).arrAt_in 0 rfl _).trans ((A_eq m c 0).trans (V_main_arg1 m c))),
        ((h c).2 main_arg2 (Pipeline.mem_restRefs_of main_arg2 (by decide) (by decide))).trans (W_main_arg2 m (dats m) c),
        ((h c).1 1).trans (((dats m 0 c).arrAt_in 1 rfl _).trans ((A_eq m c 1).trans (V_main_arg3 m c)))⟩)
    (run_main m ρ)

end Cert.KernelIdeal.DiceValue

end
-- ==== Proof.HostSums.lean ====
import proofs.«153003_j76931454206569_1_alg».proof.Proof.Spec
import Idealize.ShloMosaic.PureOps.Ideal.Laws

noncomputable section

namespace Cert.Dice

open Idealize.ShloMosaic Idealize.ShloMosaic.ValueIdx
open scoped BigOperators

/-- Dropping the channel, row and column coordinates of position `(r, w)` of sample `b 0` leaves `b`. -/
theorem drop_at4 (h' : A4.ReducesTo [1, 2, 3] B1) (b : B1.Idx) (r w : Fin 512) :
    h'.drop (at4 (b 0) r w) = b := by
  funext a
  match a with
  | ⟨0, _⟩ => rfl

/-- An index of the big array that drops to `b` is sample `b 0`'s position at its own row and column: its channel
    coordinate is `0`, that axis having extent one. -/
theorem eq_at4_of_drop (h' : A4.ReducesTo [1, 2, 3] B1) (i : A4.Idx) (b : B1.Idx) (h : h'.drop i = b) :
    i = at4 (b 0) (i 2) (i 3) := by
  subst h
  funext a
  match a with
  | ⟨0, _⟩ => rfl
  | ⟨1, _⟩ =>
    have h1 : (i 1).val < 1 := (i 1).isLt
    exact Fin.ext (by show (i 1).val = 0; omega)
  | ⟨2, _⟩ => rfl
  | ⟨3, _⟩ => rfl

/-- The positions of sample `b`, as an embedding of the pairs (row, column) into the big array's indices. -/
def posEmb (b : Fin 64) : Fin 512 × Fin 512 ↪ A4.Idx :=
  ⟨fun p => at4 b p.1 p.2, fun p q h => Prod.ext (congrFun h 2) (congrFun h 3)⟩

/-- So the indices the host's sum adds up at `b` are exactly the `512 × 512` positions of sample `b 0`. -/
theorem filter_drop (h' : A4.ReducesTo [1, 2, 3] B1) (b : B1.Idx) :
    Finset.univ.filter (fun i : A4.Idx => h'.drop i = b) = Finset.univ.map (posEmb (b 0)) := by
  ext i
  simp only [Finset.mem_filter, Finset.mem_univ, true_and, Finset.mem_map, posEmb, Function.Embedding.coeFn_mk]
  constructor
  · intro h
    exact ⟨(i 2, i 3), (eq_at4_of_drop h' i b h).symm⟩
  · rintro ⟨p, rfl⟩
    exact drop_at4 h' b p.1 p.2

/-- The host's sum over the channel, row and column axes of a `[64, 1, 512, 512]` array, read at sample `b`:
    the initial value plus the double sum over the sample's `512 × 512` positions. -/
theorem hostReduce_sample (h' : A4.ReducesTo [1, 2, 3] B1) (h0 : 0 < S0.numel)
    (y : FVec Ideal A4 .f32) (init : FVec Ideal S0 .f32) (b : B1.Idx) :
    Host.reduceAdd (F := Ideal) y init h' h0 b
      = init ix0 + ∑ r : Fin 512, ∑ w : Fin 512, y (at4 (b 0) r w) := by
  show Ideal.hostReduceAdd h' y (init (Shape.Idx.first h0)) b = _
  unfold Ideal.hostReduceAdd
  rw [filter_drop, Finset.sum_map, Fintype.sum_prod_type, ValueIdx.eq_ix0 (Shape.Idx.first h0)]
  rfl

end Cert.Dice

end
-- ==== Proof.RefValue.lean ====
import proofs.«153003_j76931454206569_1_alg».proof.Proof.RefRun
import proofs.«153003_j76931454206569_1_alg».proof.Proof.Spec
import proofs.«153003_j76931454206569_1_alg».proof.Proof.HostSums
import Idealize.ShloMosaic.PureOps.Ideal.Laws
import Idealize.ShloMosaic.Lib.ValueIdx
import Idealize.ShloMosaic.Lib.IdealHost

noncomputable section

namespace Cert.ReferenceIdeal.DiceValue

open Cert.ReferenceIdeal Cert.ReferenceIdeal.Gen Cert.Dice
open Idealize.ShloMosaic Idealize.ShloMosaic.TcCoe Idealize.ShloMosaic.ValueIdx Idealize.SL.Sem
open scoped BigOperators

/-- The reference's sigmoid, as it spells it: `1 / (1 + exp (−x))` with the host's operations. -/
abbrev sigR {F : FTy → Type} [FloatOps F] (x : FVec F S64x1x512x512 .f32) : FVec F S64x1x512x512 .f32 :=
  Host.divf (broadcastInDim S64x1x512x512 ![] bcast_S_S64x1x512x512 (constant S_ .f32 0x3F800000#32))
    (addf (broadcastInDim S64x1x512x512 ![] bcast_S_S64x1x512x512 (constant S_ .f32 0x3F800000#32)) (Host.exp (Host.negf x)))

/-- At the extended reals that expression is the logistic function, entry by entry. -/
theorem sigR_apply (x : FVec Ideal S64x1x512x512 .f32) (i : S64x1x512x512.Idx) :
    sigR (F := Ideal) x i = Ideal.logistic (x i) := by
  show FloatOps.hostDivf (Ideal.ofBits .f32 0x3F800000#32)
      (FloatOps.addf (Ideal.ofBits .f32 0x3F800000#32) (FloatOps.hostUnary .exp (FloatOps.hostNegf (x i)))) = _
  rw [Ideal.ofBits_one_f32]
  rfl

/-- The reference's four per-sample sums are the specification's. -/
theorem ref_pg (x g : FVec Ideal S64x1x512x512 .f32) :
    Host.reduceAdd (F := Ideal) (mulf (sigR x) g) (constant S_ .f32 0x00000000#32) reducesTo_S64x1x512x512_S64_d1_2_3 h_S_
      = fun b => sumPG x g (b 0) := by
  funext b
  refine (hostReduce_sample reducesTo_S64x1x512x512_S64_d1_2_3 h_S_ _ _ b).trans ?_
  rw [constant_apply, Ideal.ofBits_zero_f32, zero_add]
  unfold sumPG
  refine Finset.sum_congr rfl fun r _ => Finset.sum_congr rfl fun w _ => ?_
  rw [mulf_apply, sigR_apply]

theorem ref_pp (x : FVec Ideal S64x1x512x512 .f32) :
    Host.reduceAdd (F := Ideal) (mulf (sigR x) (sigR x)) (constant S_ .f32 0x00000000#32) reducesTo_S64x1x512x512_S64_d1_2_3 h_S_
      = fun b => sumPP x (b 0) := by
  funext b
  refine (hostReduce_sample reducesTo_S64x1x512x512_S64_d1_2_3 h_S_ _ _ b).trans ?_
  rw [constant_apply, Ideal.ofBits_zero_f32, zero_add]
  unfold sumPP
  refine Finset.sum_congr rfl fun r _ => Finset.sum_congr rfl fun w _ => ?_
  rw [mulf_apply, sigR_apply]

theorem ref_gg (g : FVec Ideal S64x1x512x512 .f32) :
    Host.reduceAdd (F := Ideal) (mulf g g) (constant S_ .f32 0x00000000#32) reducesTo_S64x1x512x512_S64_d1_2_3 h_S_
      = fun b => sumGG g (b 0) := by
  funext b
  refine (hostReduce_sample reducesTo_S64x1x512x512_S64_d1_2_3 h_S_ _ _ b).trans ?_
  rw [constant_apply, Ideal.ofBits_zero_f32, zero_add]
  unfold sumGG
  refine Finset.sum_congr rfl fun r _ => Finset.sum_congr rfl fun w _ => ?_
  rw [mulf_apply]

theorem ref_ps (x : FVec Ideal S64x1x512x512 .f32) :
    Host.reduceAdd (F := Ideal) (sigR x) (constant S_ .f32 0x00000000#32) reducesTo_S64x1x512x512_S64_d1_2_3 h_S_
      = fun b => sumP x (b 0) := by
  funext b
  refine (hostReduce_sample reducesTo_S64x1x512x512_S64_d1_2_3 h_S_ _ _ b).trans ?_
  rw [constant_apply, Ideal.ofBits_zero_f32, zero_add]
  unfold sumP
  exact Finset.sum_congr rfl fun r _ => Finset.sum_congr rfl fun w _ => sigR_apply x _

/-- The reference's run at the extended reals: the two results are the two losses of the arguments and of the
    specification's four sums; the arguments are unchanged. -/
theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19)
        = clsLoss (F := Ideal) bcast_S_S64 reducesTo_S64_S_d0 h_S_ (m ((c.tc : Thread nD τ).loc main_arg0)) (m ((c.tc : Thread nD τ).loc main_arg2))
      ∧ r.2.mem ((c.tc : Thread nD τ).loc main_v52)
        = segLoss (F := Ideal) bcast_S_S64 reducesTo_S64_S_d0 h_S_ (m ((c.tc : Thread nD τ).loc main_arg0)) (m ((c.tc : Thread nD τ).loc main_arg2))
            (fun b => sumPG (m ((c.tc : Thread nD τ).loc main_arg1)) (m ((c.tc : Thread nD τ).loc main_arg3)) (b 0))
            (fun b => sumPP (m ((c.tc : Thread nD τ).loc main_arg1)) (b 0))
            (fun b => sumGG (m ((c.tc : Thread nD τ).loc main_arg3)) (b 0))
            (fun b => sumP (m ((c.tc : Thread nD τ).loc main_arg1)) (b 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
      obtain ⟨h19, h52, ha0, ha1, ha2, ha3⟩ := h c
      rw [ref_pg (m ((c.tc : Thread nD τ).loc main_arg1)) (m ((c.tc : Thread nD τ).loc main_arg3)),
        ref_pp (m ((c.tc : Thread nD τ).loc main_arg1)), ref_gg (m ((c.tc : Thread nD τ).loc main_arg3)),
        ref_ps (m ((c.tc : Thread nD τ).loc main_arg1))] at h52
      exact ⟨h19, h52, ha0, ha1, ha2, ha3⟩)
    (Cert.ReferenceIdeal.ValueP.run (F := Ideal) m ρ)

end Cert.ReferenceIdeal.DiceValue

end
-- ==== Proof.PreBinary.lean ====
import proofs.«153003_j76931454206569_1_alg».proof.Pre_finite_inputs
import proofs.«153003_j76931454206569_1_alg».proof.Proof.Spec
import Idealize.ShloMosaic.PureOps.Ideal.Laws
import Idealize.ShloMosaic.Lib.ReduceAll
import Idealize.ShloMosaic.Lib.StableHlo.Predicate
import Idealize.ShloMosaic.Lib.IdealHost

noncomputable section

namespace Cert.Dice

open Idealize.ShloMosaic

/-- An ordered-equal comparison of two extended reals that came out `1` compared equal values. -/
private theorem eq_of_cmp_oeq {a b : EReal} (e : Ideal.cmp .oeq a b = 1#1) : a = b :=
  of_decide_eq_true ((StableHlo.Predicate.ofBool_eq_one_iff _).1 e)

/-- Where the printed precondition is all ones, every entry of the mask argument is `0` or `1`. -/
theorem mask_binary [Cert.Pre_finite_inputs.Facts]
    (x0 : FVec Ideal Cert.Pre_finite_inputs.S64 .f32) (x1 : FVec Ideal Cert.Pre_finite_inputs.S64x1x512x512 .f32)
    (x2 : IVec Cert.Pre_finite_inputs.S64 32) (x3 : FVec Ideal Cert.Pre_finite_inputs.S64x1x512x512 .f32)
    (h : Cert.Pre_finite_inputs.fn (F := Ideal) x0 x1 x2 x3 = fun _ => 1#1) :
    ∀ i : A4.Idx, (x3 i : EReal) = 0 ∨ (x3 i : EReal) = 1 := by
  intro i
  -- The scalar shape has one index.
  haveI : Subsingleton Cert.Pre_finite_inputs.S_.Idx := ⟨fun a b => funext fun d => d.elim0⟩
  -- The predicate is a scalar: read it at its one index and open the printed chain of `let`s.
  have h0 := congrFun h ValueIdx.ix0
  dsimp only [Cert.Pre_finite_inputs.fn, Cert.Pre_finite_inputs.fn_part1] at h0
  -- It is a conjunction of four `all`s; the last one is the statement about the mask.
  have h1 := (IntOp.andi_eq_one.1 h0).2
  -- An `and`-reduction over every axis that is `1` met a `1` at every index, in particular at `i`.
  have h2 := Host.reduce_andi_all _ _ _ _ _ h1 i
  -- At `i` that is the disjunction of two comparisons of `x3 i`, with the constants `0` and `1`
  -- (a scalar broadcast reads the scalar, and the two bit patterns denote `0` and `1`).
  rcases IntOp.ori_eq_one.1 h2 with e | e
  · have e0 : Ideal.cmp .oeq (x3 i) (Ideal.ofBits .f32 0x00000000#32) = 1#1 := e
    rw [Ideal.ofBits_zero_f32] at e0
    exact Or.inl (eq_of_cmp_oeq e0)
  · have e1 : Ideal.cmp .oeq (x3 i) (Ideal.ofBits .f32 0x3F800000#32) = 1#1 := e
    rw [Ideal.ofBits_one_f32] at e1
    exact Or.inr (eq_of_cmp_oeq e1)

end Cert.Dice

end
-- ==== Proof.lean ====
/-
  The classification-and-segmentation loss: a Pallas kernel that streams the logits `x` and the ground-truth mask `g`
  (`[64, 1, 512, 512]` each) tile by tile and accumulates, per sample, the four sums `Σ σ(x)·g`, `Σ σ(x)·σ(x)`, `Σ g` and
  `Σ σ(x)` (`σ` the logistic function), followed by a few host lines that turn them, the class probabilities and the labels
  into the dice loss of the selected samples; against the jnp reference that takes the same sums in one reduction each
  over the channel, row and column axes, but with `Σ g·g` where the kernel has `Σ g`.

  Over the extended reals the two programs agree wherever every mask entry is `0` or `1` (the precondition's last
  conjunct), because then `g·g = g` entry by entry:
    * the kernel's accumulators are reset on the first of the eight row tiles of each half of the batch and written
      back after the last; after the last tile each holds the eight tile sums, which regroup into the double sum over
      all `512 × 512` positions (addition of extended reals is associative and commutative, `0` is neutral: no
      finiteness is used);
    * the kernel's `tpu.logistic` and the reference's `1 / (1 + exp (−x))` are one function of an extended real;
    * the host lines after the sums are the same operations in both programs, and the classification loss is the
      same chain of host operations of the class probabilities and the labels in both.
  The three frame claims are the generated frame certificates of the two kernel programs and the reference's run with
  its results dropped; the ideal pass rewrote nothing, so the preservation claim is trivial.
-/
import proofs.«153003_j76931454206569_1_alg».proof.Defs
import proofs.«153003_j76931454206569_1_alg».proof.Proof.Gen.Kernel
import proofs.«153003_j76931454206569_1_alg».proof.Proof.Gen.Kernel.Frame
import proofs.«153003_j76931454206569_1_alg».proof.Proof.Gen.KernelIdeal
import proofs.«153003_j76931454206569_1_alg».proof.Proof.Gen.KernelIdeal.Frame
import proofs.«153003_j76931454206569_1_alg».proof.Proof.Gen.ReferenceIdeal
import proofs.«153003_j76931454206569_1_alg».proof.Proof.Gen.Pre_finite_inputs
import proofs.«153003_j76931454206569_1_alg».proof.Proof.KRun
import proofs.«153003_j76931454206569_1_alg».proof.Proof.RefValue
import proofs.«153003_j76931454206569_1_alg».proof.Proof.PreBinary
import Idealize.ShloMosaic.Adequacy
import Idealize.ShloMosaic.Init

noncomputable section

namespace Cert.Proof

open Idealize.ShloMosaic Idealize.ShloMosaic.TcCoe Idealize.SL.Sem Cert.Dice

/-- The word-level kernel runs and leaves its arguments alone: its generated frame certificate. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the two results dropped. -/
theorem frame_ri : Cert.frame_ReferenceIdeal := fun m ρ _ =>
  (θ_run Cert.ReferenceIdeal.defs _ _).mono (fun _ h c => (h c).2.2) (Cert.ReferenceIdeal.DiceValue.run_values m ρ)

/-- The ideal pass rewrote nothing. -/
theorem preserves : Cert.preserves_Kernel_KernelIdeal := trivial

/-- From memories that agree on the four arguments, with a mask of zeros and ones: both programs end with the
    classification loss of the class probabilities and labels, and with the segmentation loss of them and of the four
    per-sample sums — the reference's `Σ g·g` being the kernel's `Σ g` for such a mask. -/
theorem algebraic : Cert.algebraic_KernelIdeal_ReferenceIdeal := by
  intro m ρ m' ρ' hpre hagree
  refine ⟨_, _, Cert.KernelIdeal.DiceValue.run_values m ρ, ?_⟩
  refine (θ_run Cert.ReferenceIdeal.defs _ _).mono (fun _ h c => ?_) (Cert.ReferenceIdeal.DiceValue.run_values m' ρ')
  obtain ⟨h19, h52, k0, k1, k2, k3⟩ := h c
  obtain ⟨a0, a1, a2, a3⟩ := hagree c
  have hbin := Cert.Dice.mask_binary _ _ _ _ (hpre c)
  have hgg : (fun b : B1.Idx => sumGG (m ((c.tc : Thread Cert.KernelIdeal.nD Cert.KernelIdeal.τ).loc Cert.KernelIdeal.main_arg3)) (b 0)) = fun b : B1.Idx => sumG (m ((c.tc : Thread Cert.KernelIdeal.nD Cert.KernelIdeal.τ).loc Cert.KernelIdeal.main_arg3)) (b 0) :=
    funext fun b => sumGG_eq_sumG _ hbin (b 0)
  refine ⟨h19.trans ?_, h52.trans ?_, k0, k1, k2, k3⟩
  · rw [a0, a2]
  · rw [a0, a1, a2, a3, hgg]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
